-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v10 : IVec S_ 1) (main_v15 : IVec S8192x8192 1) (main_c_5 : IVec S_ 1) : IVec S_ 1 :=
  let main_v16 : IVec S_ 1 := (fun x v => Host.reduce IntOp.andi x v reducesTo_S8192x8192_S_d0_1 h_S_) main_v15 main_c_5
  let main_v17 : IVec S_ 1 := andi main_v10 main_v16
  main_v17

def fn {F : FTy → Type} [FloatOps F] (main_arg0 : FVec F S8192x512 .f32) (main_arg1 : IVec S8192x8192 32) (main_arg2 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192x8192 32 := broadcastInDim S8192x8192 ![] bcast_S_S8192x8192 main_c_0
  let main_v5 : IVec S8192x8192 1 := cmpi .eq main_arg1 main_v4
  let main_c_1 : IVec S_ 32 := constantI S_ 32 1#32
  let main_v6 : IVec S8192x8192 32 := broadcastInDim S8192x8192 ![] bcast_S_S8192x8192 main_c_1
  let main_v7 : IVec S8192x8192 1 := cmpi .eq main_arg1 main_v6
  let main_v8 : IVec S8192x8192 1 := ori main_v5 main_v7
  let main_c_2 : IVec S_ 1 := constantI S_ 1 1#1
  let main_v9 : IVec S_ 1 := (fun x v => Host.reduce IntOp.andi x v reducesTo_S8192x8192_S_d0_1 h_S_) main_v8 main_c_2
  let main_v10 : IVec S_ 1 := andi main_v3 main_v9
  let main_c_3 : IVec S_ 32 := constantI S_ 32 0#32
  let main_v11 : IVec S8192x8192 32 := broadcastInDim S8192x8192 ![] bcast_S_S8192x8192 main_c_3
  let main_v12 : IVec S8192x8192 1 := cmpi .eq main_arg2 main_v11
  let main_c_4 : IVec S_ 32 := constantI S_ 32 1#32
  let main_v13 : IVec S8192x8192 32 := broadcastInDim S8192x8192 ![] bcast_S_S8192x8192 main_c_4
  let main_v14 : IVec S8192x8192 1 := cmpi .eq main_arg2 main_v13
  let main_v15 : IVec S8192x8192 1 := ori main_v12 main_v14
  let main_c_5 : IVec S_ 1 := constantI S_ 1 1#1
  fn_part1 (F := F) main_v10 main_v15 main_c_5
-- ==== Kernel.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 19
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8192x512, .bf16⟩
  | .local _ .vmem, ⟨1, _⟩ => ⟨S1024x1024, .i32⟩
  | .local _ .vmem, ⟨2, _⟩ => ⟨S1024x1024, .i32⟩
  | .local _ .vmem, ⟨3, _⟩ => ⟨S1024x1024, .i32⟩
  | .local _ .vmem, ⟨4, _⟩ => ⟨S1024x1024, .i32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v5 : BitVec 32 := v3
  let v6 : Index := Scalar.indexCast v5
  let c0 : Index := 0#32
  ![v6.toNat, 0]
def k0_mult2 (i : grid0.Coords) : BitVec 32 :=
  let arg1 : BitVec 32 := BitVec.ofNat 32 (i 1).val
  let c1024_i32_1 : BitVec 32 := 1024#32
  let v4 : BitVec 32 := Scalar.muli arg1 c1024_i32_1
  v4
def k0_off2 (i : grid0.Coords) : Fin 2 → Nat :=
  let arg1 : BitVec 32 := BitVec.ofNat 32 (i 1).val
  let c1024_i32_1 : BitVec 32 := 1024#32
  let v4 : BitVec 32 := Scalar.muli arg1 c1024_i32_1
  let v9 : BitVec 32 := v4
  let v10 : Index := Scalar.indexCast v9
  let c0_2 : Index := 0#32
  ![v10.toNat, 0]
def k0_cond2 (i : grid0.Coords) : BitVec 1 :=
  let arg1 : BitVec 32 := BitVec.ofNat 32 (i 1).val
  let c7_i32 : BitVec 32 := 7#32
  let v72 : BitVec 1 := Scalar.cmpi .eq arg1 c7_i32
  let v73 : BitVec 32 := Scalar.extui v72
  let c0_i32_32 : BitVec 32 := 0#32
  let v74 : BitVec 1 := Scalar.cmpi .ne v73 c0_i32_32
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  natLt_1_32 : 1 < 32
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  k0_mult2_dvd : ∀ i : grid0.Coords, 1024 ∣ (k0_mult2 i).toNat
  k0_off2_inb : ∀ i : grid0.Coords, ∀ a, (k0_off2 i) a + S1024x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x8192 : Shape := ⟨2, ![512, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x8192, .i32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x512, .f32⟩
  | .hbm, ⟨26, _⟩ => ⟨S8192x512, .f32⟩
  | .hbm, ⟨27, _⟩ => ⟨S512x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .i1⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Pre.lean ====
/-
  What the precondition says, entry by entry: every feature is a real number (its absolute value is
  below +∞), and every word of either mask is 0 or 1 (the conjunction over all entries of
  "equals 0 or equals 1" is true).

  The precondition is a conjunction of three "for all entries" statements, each a fold by `and` over a whole
  array into the one entry of a rank-0 array. A conjunction of bits is 1 exactly when each bit is 1, and a fold by
  `and` from 1 that comes out 1 met only 1s; so each entry of each of the three arrays of bits is 1. For a feature x
  the bit is "max x (−x) < +∞": both x < +∞ and −x < +∞, so x is neither +∞ nor −∞, hence a real number. For a mask
  word w the bit is "(w = 0) or (w = 1)", a disjunction of two equality bits.
-/
import proofs.«400907_j30777735643988_3_alg».proof.Pre_finite_inputs
import Idealize.ShloMosaic.Lib.ReduceAll
import Idealize.ShloMosaic.Lib.StableHlo.Predicate
import Idealize.ShloMosaic.PureOps.Ideal.Laws
import Idealize.ShloMosaic.Lib.ValueIdx
import Mathlib.Data.EReal.Basic
import Mathlib.Data.EReal.Operations

noncomputable section

namespace Cert.SupCon.PreRead

open Idealize.ShloMosaic Idealize.ShloMosaic.ValueIdx

/-- The comparison "strictly below" of two extended reals, as a bit. -/
theorem cmp_olt (a b : EReal) : Ideal.cmp .olt a b = BitVec.ofBool (decide (a < b)) := rfl

/-- The word 0x7F800000 is +∞. -/
theorem ofBits_posInf : Ideal.ofBits .f32 0x7F800000#32 = (⊤ : EReal) := by simp [Ideal.ofBits, Ideal.ieee]

/-- An extended real whose absolute value max a (−a) is strictly below +∞ is a real number. -/
theorem real_of_abs_lt_top (a : EReal)
    (h : Ideal.cmp .olt (max a (-a)) (Ideal.ofBits .f32 0x7F800000#32) = 1#1) : ∃ r : ℝ, a = (r : EReal) := by
  rw [ofBits_posInf, cmp_olt, StableHlo.Predicate.ofBool_eq_one_iff] at h
  have hlt : max a (-a) < ⊤ := of_decide_eq_true h
  obtain ⟨h1, h2⟩ := max_lt_iff.1 hlt
  have ht : a ≠ ⊤ := ne_of_lt h1
  have hb : a ≠ ⊥ := fun e => by rw [e, EReal.neg_bot] at h2; exact lt_irrefl _ h2
  exact ⟨a.toReal, (EReal.coe_toReal ht hb).symm⟩

/-- A word for which "equals 0 or equals 1" holds as a bit is 0 or 1. -/
theorem word_zero_or_one (w : BitVec 32)
    (h : IntOp.ori (IntOp.cmpi .eq w 0#32) (IntOp.cmpi .eq w 1#32) = 1#1) : w = 0#32 ∨ w = 1#32 := by
  rcases IntOp.ori_eq_one.1 h with e | e
  · exact Or.inl (IntOp.cmpi_eq.1 e)
  · exact Or.inr (IntOp.cmpi_eq.1 e)

/-- A conjunction of two arrays of bits, read at an entry. -/
theorem andi_at {s : Shape} {w : Nat} (a b : IVec s w) (i : s.Idx) : andi a b i = IntOp.andi (a i) (b i) := rfl

/-- The precondition, read entry by entry. -/
theorem decode [Cert.Pre_finite_inputs.Facts]
    (x : FVec Ideal Cert.Pre_finite_inputs.S8192x512 .f32) (wp wn : IVec Cert.Pre_finite_inputs.S8192x8192 32)
    (h : Cert.Pre_finite_inputs.fn (F := Ideal) x wp wn = fun _ => 1#1) :
    (∀ idx, ∃ r : ℝ, x idx = (r : EReal)) ∧ (∀ idx, wp idx = 0#32 ∨ wp idx = 1#32)
      ∧ (∀ idx, wn idx = 0#32 ∨ wn idx = 1#32) := by
  haveI : Subsingleton Cert.Pre_finite_inputs.S_.Idx := ⟨fun a b => funext fun d => d.elim0⟩
  have h0 := congrFun h ix0
  dsimp only [Cert.Pre_finite_inputs.fn, Cert.Pre_finite_inputs.fn_part1] at h0
  rw [andi_at, andi_at, IntOp.andi_eq_one, IntOp.andi_eq_one] at h0
  obtain ⟨⟨hx, hp⟩, hn⟩ := h0
  refine ⟨fun idx => ?_, fun idx => ?_, fun idx => ?_⟩
  · have e := Host.reduce_andi_all _ _ _ _ _ hx idx
    exact real_of_abs_lt_top (x idx) e
  · have e := Host.reduce_andi_all _ _ _ _ _ hp idx
    exact word_zero_or_one (wp idx) e
  · have e := Host.reduce_andi_all _ _ _ _ _ hn idx
    exact word_zero_or_one (wn idx) e

end Cert.SupCon.PreRead

end
-- ==== Proof.KDefs.lean ====
/-
  One grid point's work on the four running quantities, as pure functions of what the body loads.

  At grid point (i, j) the body reads rows 1024 i … of the resident normalized features (the row
  strip) and rows 1024 j … (the column strip), the two mask blocks, and the four running vectors
  (maximum, positives' sum, negatives' sum, positives' count), and stores the stepped vectors:
  the new maximum, the two sums rescaled to it plus the block's masked exponentials, the count
  plus the block's count. At the first block of a row the running vectors are the reset values
  (-∞, 0, 0, 0); at the last block the row of the loss is computed from the stepped values.
-/
import proofs.«400907_j30777735643988_3_alg».proof.Proof.Gen.KernelIdeal.Skeleton
import Idealize.ShloMosaic.Lib.Pipeline.Value

noncomputable section

namespace Cert.KernelIdeal.Step

open Idealize.ShloMosaic Idealize.ShloMosaic.TcCoe Idealize.SL.Sem
open Cert.KernelIdeal Cert.KernelIdeal.Gen

variable {F : FTy → Type} [FloatOps F] [Named F]

/-- Rows `1024 · i 0 …` of the resident array, as the body loads them. -/
abbrev rowStrip (i : grid0.Coords) (x0 : Vec F S8192x512 .bf16) : Vec F S1024x512 .bf16 :=
  View.ld x0 (Rect.unit (s := S8192x512) (k0_off1 i) S1024x512.size (k0_off1_inb i))

/-- Rows `1024 · i 1 …` of the resident array: the columns of the similarity block. -/
abbrev colStrip (i : grid0.Coords) (x0 : Vec F S8192x512 .bf16) : Vec F S1024x512 .bf16 :=
  View.ld x0 (Rect.unit (s := S8192x512) (k0_off2 i) S1024x512.size (k0_off2_inb i))

/-- The running maximum after the point. -/
def stepM (i : grid0.Coords) (x0 : Vec F S8192x512 .bf16) (m : Vec F S1024x1 .f32) : FVec F S1024x1 .f32 :=
  k0_pay16 (k0_pay10 (rowStrip i x0) (colStrip i x0) m)

/-- The positives' running sum after the point. -/
def stepP (i : grid0.Coords) (x0 : Vec F S8192x512 .bf16) (x1 : Vec F S1024x1024 .i32) (m lp : Vec F S1024x1 .f32) :
    FVec F S1024x1 .f32 :=
  k0_pay13 (k0_pay8 i x1) (k0_pay11 (rowStrip i x0) (colStrip i x0) m) (k0_pay12 (rowStrip i x0) (colStrip i x0) m) lp

/-- The negatives' running sum after the point. -/
def stepN (i : grid0.Coords) (x0 : Vec F S8192x512 .bf16) (x2 : Vec F S1024x1024 .i32) (m ln : Vec F S1024x1 .f32) :
    FVec F S1024x1 .f32 :=
  k0_pay14 (k0_pay9 i x2) (k0_pay11 (rowStrip i x0) (colStrip i x0) m) (k0_pay12 (rowStrip i x0) (colStrip i x0) m) ln

/-- The positives' running count after the point. -/
def stepC (i : grid0.Coords) (x1 : Vec F S1024x1024 .i32) (cd : Vec F S1024x1 .f32) : FVec F S1024x1 .f32 :=
  k0_pay15 (k0_pay8 i x1) cd

end Cert.KernelIdeal.Step

end
-- ==== Proof.KPieces.lean ====
/-
  What each control case of the body leaves in the four running vectors and in the output block,
  read off the stores the run of the body found: in every case the stepped quantities of KDefs,
  over the reset values at the first block of a row and over the previous point's contents later.
-/
import proofs.«400907_j30777735643988_3_alg».proof.Proof.Gen.KernelIdeal.Frame
import proofs.«400907_j30777735643988_3_alg».proof.Proof.KDefs
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Step

variable {F : FTy → Type} [FloatOps F] [Named F]

/-- The zero offsets of a whole-buffer access, however spelt. -/
theorem hz : (![0, 0] : Fin 2 → Nat) = fun _ => 0 := funext fun a => by fin_cases a <;> rfl

/-- Case A (first block of a row: the running vectors are the reset values the body has just stored and reads back): the running maximum after the point. -/
theorem sout_A_0 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S8192x512 .bf16) (x1 : Vec F S1024x1024 .i32) (x2 : Vec F S1024x1024 .i32) :
    sout0_A_0 c i arg2 harg2 arg3 harg3 arg4 harg4 arg5 harg5 arg6 harg6 arg7 harg7 arg8 harg8 arg9 harg9 hc0 hc1 x0 x1 x2 = stepM i x0 k0_pay2 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S1024x1) hz]
  simp only [View.readAt_eq_ld, harg2.read_unread,
    View.readCov_unit_zero (S := S1024x1) _ hz,
    View.ld_unit_zero (S := S1024x1) hz, View.ld_unit_zero (S := S1024x1024) hz]
  rfl

/-- Case A (first block of a row: the running vectors are the reset values the body has just stored and reads back): the positives' running sum after the point. -/
theorem sout_A_1 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S8192x512 .bf16) (x1 : Vec F S1024x1024 .i32) (x2 : Vec F S1024x1024 .i32) :
    sout0_A_1 c i arg2 harg2 arg3 harg3 arg4 harg4 arg5 harg5 arg6 harg6 arg7 harg7 arg8 harg8 arg9 harg9 hc0 hc1 x0 x1 x2 = stepP i x0 x1 k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S1024x1) hz]
  simp only [View.readAt_eq_ld, harg2.read_unread, harg3.read_unread,
    View.readCov_unit_zero (S := S1024x1) _ hz,
    View.ld_unit_zero (S := S1024x1) hz, View.ld_unit_zero (S := S1024x1024) hz]
  rfl

/-- Case A (first block of a row: the running vectors are the reset values the body has just stored and reads back): the negatives' running sum after the point. -/
theorem sout_A_2 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S8192x512 .bf16) (x1 : Vec F S1024x1024 .i32) (x2 : Vec F S1024x1024 .i32) :
    sout0_A_2 c i arg2 harg2 arg3 harg3 arg4 harg4 arg5 harg5 arg6 harg6 arg7 harg7 arg8 harg8 arg9 harg9 hc0 hc1 x0 x1 x2 = stepN i x0 x2 k0_pay2 k0_pay4 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S1024x1) hz]
  simp only [View.readAt_eq_ld, harg2.read_unread, harg4.read_unread,
    View.readCov_unit_zero (S := S1024x1) _ hz,
    View.ld_unit_zero (S := S1024x1) hz, View.ld_unit_zero (S := S1024x1024) hz]
  rfl

/-- Case A (first block of a row: the running vectors are the reset values the body has just stored and reads back): the positives' running count after the point. -/
theorem sout_A_3 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S8192x512 .bf16) (x1 : Vec F S1024x1024 .i32) (x2 : Vec F S1024x1024 .i32) :
    sout0_A_3 c i arg2 harg2 arg3 harg3 arg4 harg4 arg5 harg5 arg6 harg6 arg7 harg7 arg8 harg8 arg9 harg9 hc0 hc1 x0 x1 x2 = stepC i x1 k0_pay5 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_run_names
  rw [View.canon_cons_unit_zero (S := S1024x1) hz]
  simp only [View.readAt_eq_ld, harg3.read_unread,
    View.readCov_unit_zero (S := S1024x1) _ hz,
    View.ld_unit_zero (S := S1024x1) hz, View.ld_unit_zero (S := S1024x1024) hz]
  rfl

/-- Case B (a middle block: the running vectors are what the point before left): the running maximum after the point. -/
theorem sout_B_0 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S8192x512 .bf16) (x1 : Vec F S1024x1024 .i32) (x2 : Vec F S1024x1024 .i32) (xs0 xs1 xs2 xs3 : Vec F S1024x1 .f32) :
    sout0_B_0 c i arg2 harg2 arg3 harg3 arg4 harg4 arg5 harg5 arg6 harg6 arg7 harg7 arg8 harg8 arg9 harg9 hc0 hc1 x0 x1 x2 xs0 xs1 xs2 xs3 = stepM i x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_run_names
  rw [View.canon_unit_zero hz]
  simp only [View.readAt_eq_ld, harg2.read_unread, harg6.read_unread,
    View.ld_unit_zero (S := S1024x1) hz, View.ld_unit_zero (S := S1024x1024) hz]
  rfl

/-- Case B (a middle block: the running vectors are what the point before left): the positives' running sum after the point. -/
theorem sout_B_1 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S8192x512 .bf16) (x1 : Vec F S1024x1024 .i32) (x2 : Vec F S1024x1024 .i32) (xs0 xs1 xs2 xs3 : Vec F S1024x1 .f32) :
    sout0_B_1 c i arg2 harg2 arg3 harg3 arg4 harg4 arg5 harg5 arg6 harg6 arg7 harg7 arg8 harg8 arg9 harg9 hc0 hc1 x0 x1 x2 xs0 xs1 xs2 xs3 = stepP i x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_run_names
  rw [View.canon_unit_zero hz]
  simp only [View.readAt_eq_ld, harg2.read_unread, harg3.read_unread, harg6.read_unread, harg7.read_unread,
    View.ld_unit_zero (S := S1024x1) hz, View.ld_unit_zero (S := S1024x1024) hz]
  rfl

/-- Case B (a middle block: the running vectors are what the point before left): the negatives' running sum after the point. -/
theorem sout_B_2 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S8192x512 .bf16) (x1 : Vec F S1024x1024 .i32) (x2 : Vec F S1024x1024 .i32) (xs0 xs1 xs2 xs3 : Vec F S1024x1 .f32) :
    sout0_B_2 c i arg2 harg2 arg3 harg3 arg4 harg4 arg5 harg5 arg6 harg6 arg7 harg7 arg8 harg8 arg9 harg9 hc0 hc1 x0 x1 x2 xs0 xs1 xs2 xs3 = stepN i x0 x2 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_run_names
  rw [View.canon_unit_zero hz]
  simp only [View.readAt_eq_ld, harg2.read_unread, harg4.read_unread, harg6.read_unread, harg8.read_unread,
    View.ld_unit_zero (S := S1024x1) hz, View.ld_unit_zero (S := S1024x1024) hz]
  rfl

/-- Case B (a middle block: the running vectors are what the point before left): the positives' running count after the point. -/
theorem sout_B_3 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S8192x512 .bf16) (x1 : Vec F S1024x1024 .i32) (x2 : Vec F S1024x1024 .i32) (xs0 xs1 xs2 xs3 : Vec F S1024x1 .f32) :
    sout0_B_3 c i arg2 harg2 arg3 harg3 arg4 harg4 arg5 harg5 arg6 harg6 arg7 harg7 arg8 harg8 arg9 harg9 hc0 hc1 x0 x1 x2 xs0 xs1 xs2 xs3 = stepC i x1 xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_run_names
  rw [View.canon_unit_zero hz]
  simp only [View.readAt_eq_ld, harg3.read_unread, harg9.read_unread,
    View.ld_unit_zero (S := S1024x1) hz, View.ld_unit_zero (S := S1024x1024) hz]
  rfl

/-- Case C (the last block: as a middle block, and the row of the loss is stored from the stepped values): the running maximum after the point. -/
theorem sout_C_0 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S8192x512 .bf16) (x1 : Vec F S1024x1024 .i32) (x2 : Vec F S1024x1024 .i32) (xs0 xs1 xs2 xs3 : Vec F S1024x1 .f32) :
    sout0_C_0 c i arg2 harg2 arg3 harg3 arg4 harg4 arg5 harg5 arg6 harg6 arg7 harg7 arg8 harg8 arg9 harg9 hc0 hc1 x0 x1 x2 xs0 xs1 xs2 xs3 = stepM i x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_run_names
  rw [View.canon_unit_zero hz]
  simp only [View.readAt_eq_ld, harg2.read_unread, harg6.read_unread,
    View.ld_unit_zero (S := S1024x1) hz, View.ld_unit_zero (S := S1024x1024) hz]
  rfl

/-- Case C (the last block: as a middle block, and the row of the loss is stored from the stepped values): the positives' running sum after the point. -/
theorem sout_C_1 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S8192x512 .bf16) (x1 : Vec F S1024x1024 .i32) (x2 : Vec F S1024x1024 .i32) (xs0 xs1 xs2 xs3 : Vec F S1024x1 .f32) :
    sout0_C_1 c i arg2 harg2 arg3 harg3 arg4 harg4 arg5 harg5 arg6 harg6 arg7 harg7 arg8 harg8 arg9 harg9 hc0 hc1 x0 x1 x2 xs0 xs1 xs2 xs3 = stepP i x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_run_names
  rw [View.canon_unit_zero hz]
  simp only [View.readAt_eq_ld, harg2.read_unread, harg3.read_unread, harg6.read_unread, harg7.read_unread,
    View.ld_unit_zero (S := S1024x1) hz, View.ld_unit_zero (S := S1024x1024) hz]
  rfl

/-- Case C (the last block: as a middle block, and the row of the loss is stored from the stepped values): the negatives' running sum after the point. -/
theorem sout_C_2 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S8192x512 .bf16) (x1 : Vec F S1024x1024 .i32) (x2 : Vec F S1024x1024 .i32) (xs0 xs1 xs2 xs3 : Vec F S1024x1 .f32) :
    sout0_C_2 c i arg2 harg2 arg3 harg3 arg4 harg4 arg5 harg5 arg6 harg6 arg7 harg7 arg8 harg8 arg9 harg9 hc0 hc1 x0 x1 x2 xs0 xs1 xs2 xs3 = stepN i x0 x2 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_run_names
  rw [View.canon_unit_zero hz]
  simp only [View.readAt_eq_ld, harg2.read_unread, harg4.read_unread, harg6.read_unread, harg8.read_unread,
    View.ld_unit_zero (S := S1024x1) hz, View.ld_unit_zero (S := S1024x1024) hz]
  rfl

/-- Case C (the last block: as a middle block, and the row of the loss is stored from the stepped values): the positives' running count after the point. -/
theorem sout_C_3 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S8192x512 .bf16) (x1 : Vec F S1024x1024 .i32) (x2 : Vec F S1024x1024 .i32) (xs0 xs1 xs2 xs3 : Vec F S1024x1 .f32) :
    sout0_C_3 c i arg2 harg2 arg3 harg3 arg4 harg4 arg5 harg5 arg6 harg6 arg7 harg7 arg8 harg8 arg9 harg9 hc0 hc1 x0 x1 x2 xs0 xs1 xs2 xs3 = stepC i x1 xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_run_names
  rw [View.canon_unit_zero hz]
  simp only [View.readAt_eq_ld, harg3.read_unread, harg9.read_unread,
    View.ld_unit_zero (S := S1024x1) hz, View.ld_unit_zero (S := S1024x1024) hz]
  rfl

/-- Case C: the block of the loss the last point of a row stores, from the stepped count, negatives' sum and
    positives' sum it has just stored and reads back. -/
theorem out_C_3 (c : Dev nD) (i : grid0.Coords) (arg2 : Memref sig .tc .vmem S8192x512 .bf16) (harg2 : arg2.IsWhole) (arg3 : Memref sig .tc .vmem S1024x1024 .i32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S8192x512 .bf16) (x1 : Vec F S1024x1024 .i32) (x2 : Vec F S1024x1024 .i32) (xs0 xs1 xs2 xs3 : Vec F S1024x1 .f32) :
    out0_C_3 c i arg2 harg2 arg3 harg3 arg4 harg4 arg5 harg5 arg6 harg6 arg7 harg7 arg8 harg8 arg9 harg9 hc0 hc1 x0 x1 x2 xs0 xs1 xs2 xs3
      = k0_pay1 (stepC i x1 xs3) (stepN i x0 x2 xs0 xs2) (stepP i x0 x1 xs0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_run_names
  rw [View.canon_unit_zero hz]
  simp only [View.readAt_eq_ld, harg2.read_unread, harg3.read_unread, harg4.read_unread, harg6.read_unread, harg7.read_unread, harg8.read_unread, harg9.read_unread,
    View.readCov_unit_zero (S := S1024x1) _ hz,
    View.ld_unit_zero (S := S1024x1) hz, View.ld_unit_zero (S := S1024x1024) hz]
  rfl

end Cert.KernelIdeal.Pieces

end
-- ==== Proof.Spec.lean ====
/-
  The mathematics of the supervised-contrastive loss, stated once and with no program in sight.

  Features are normalized row by row, `y i k = x i k / max (sqrt (Σ_k x i k ²)) eps`. A row of the
  loss is built from a row `s` of scaled cosine similarities (real numbers), a positive mask `p`
  and a negative mask `n` over the 8192 columns:
    M   = the largest similarity of the row,
    lp  = the sum over masked-in positives of exp (s c - M),   ln likewise over negatives,
    cd  = the number of positives,
    row = (0 - (lp - log ln * cd)) / (cd, or 1 when cd = 0),
  read on the extended reals because `log 0 = -∞` is reached when a row has no negative; the loss
  is the mean of the rows.

  The kernel reaches `M`, `lp`, `ln`, `cd` one block of 1024 columns at a time, rescaling what it has
  by `exp (M_old - M_new)`; `mNew`, `lNew`, `cNew` are one such step on extended reals (the running
  maximum starts at `-∞`), and `pM`, `pL`, `pC` are the same quantities over the first `W` columns.
-/
import Idealize.ShloMosaic.PureOps.Ideal
import Idealize.ShloMosaic.Lib.ValueIdx
import Mathlib.Analysis.SpecialFunctions.Exp
import Mathlib.Algebra.BigOperators.Group.Finset.Basic
import Mathlib.Order.Interval.Finset.Fin

noncomputable section

namespace Cert.SupCon

open Idealize.ShloMosaic
open scoped Classical

/-- The reciprocal of the temperature as the reference holds it: the reference divides by the
    32-bit float nearest 0.07, which is exactly 9395241 / 2^27. -/
def invT : ℝ := 134217728 / 9395241

/-- Entry `r` of block `b` of an axis of 8 blocks of 1024. -/
def gIdx (b : Fin 8) (r : Fin 1024) : Fin 8192 := ⟨1024 * b.val + r.val, by omega⟩

/-! ## The normalized features -/

/-- The divisor of row `i`: its Euclidean norm, or the floor `eps` (the 32-bit float nearest 1e-8)
    when the norm is smaller. -/
def normRow (x : Fin 8192 → Fin 512 → EReal) (i : Fin 8192) : EReal :=
  max (Ideal.sqrt (0 + ∑ k : Fin 512, x i k * x i k)) (Ideal.ofBits .f32 0x322BCC77#32)

/-- The normalized features. -/
def fnE (x : Fin 8192 → Fin 512 → EReal) (i : Fin 8192) (k : Fin 512) : EReal :=
  Ideal.div (x i k) (normRow x i)

/-! ## Similarities -/

/-- The scaled similarity of rows `i` and `j`, on extended reals. -/
def simE (y : Fin 8192 → Fin 512 → EReal) (i j : Fin 8192) : EReal :=
  (∑ k : Fin 512, y i k * y j k) * ((invT : ℝ) : EReal)

/-- The scaled similarity of rows `i` and `j` of a real matrix. -/
def sim (a : Fin 8192 → Fin 512 → ℝ) (i j : Fin 8192) : ℝ := (∑ k : Fin 512, a i k * a j k) * invT

/-- A mask entry counts when its word is not zero and it is off the diagonal. -/
def Msk (w : Fin 8192 → Fin 8192 → BitVec 32) (i j : Fin 8192) : Prop := w i j ≠ 0#32 ∧ i ≠ j

/-! ## One block step on the extended reals -/

/-- The running maximum after a block whose similarities are `sb`. -/
def mNew (m : EReal) (sb : Fin 1024 → EReal) : EReal :=
  max m ((Finset.univ : Finset (Fin 1024)).fold max ⊥ sb)

/-- A running masked sum of exponentials after a block: what was there, rescaled to the new
    maximum, plus the block's masked-in terms. -/
def lNew (msk : Fin 1024 → Prop) (m l : EReal) (sb : Fin 1024 → EReal) : EReal :=
  Ideal.exp (m - mNew m sb) * l + ∑ q : Fin 1024, (if msk q then Ideal.exp (sb q - mNew m sb) else 0)

/-- A running count after a block. -/
def cNew (msk : Fin 1024 → Prop) (c : EReal) : EReal :=
  c + ∑ q : Fin 1024, (if msk q then (1 : EReal) else 0)

/-! ## The same quantities over the first `W` columns of a row -/

/-- The columns before `W`. -/
def cols (W : ℕ) : Finset (Fin 8192) := Finset.univ.filter fun c => c.val < W

/-- The largest similarity among the first `W` columns, `-∞` when there is none. -/
def pM (s : Fin 8192 → ℝ) (W : ℕ) : EReal := (cols W).sup fun c => (s c : EReal)

/-- The masked sum of `exp (s c - pM)` over the first `W` columns. -/
def pL (s : Fin 8192 → ℝ) (p : Fin 8192 → Prop) (W : ℕ) : EReal :=
  ∑ c ∈ cols W, (if p c then Ideal.exp ((s c : EReal) - pM s W) else 0)

/-- The number of masked-in columns among the first `W`. -/
def pC (p : Fin 8192 → Prop) (W : ℕ) : EReal :=
  ∑ c ∈ cols W, (if p c then (1 : EReal) else 0)

/-! ## A row of the loss, and the loss -/

/-- A row of the loss from its whole-row quantities. -/
def rowOf (lp ln cd : EReal) : EReal :=
  Ideal.div (0 - (lp - Ideal.log ln * cd)) (if cd = 0 then 1 else cd)

/-- The row of the loss for similarities `s` and masks `p`, `n`. -/
def lossRow (s : Fin 8192 → ℝ) (p n : Fin 8192 → Prop) : EReal :=
  rowOf (pL s p 8192) (pL s n 8192) (pC p 8192)

/-- The loss: the mean of the rows, for a real normalized matrix `a` and mask words `wp`, `wn`. -/
def lossTotal (a : Fin 8192 → Fin 512 → ℝ) (wp wn : Fin 8192 → Fin 8192 → BitVec 32) : EReal :=
  Ideal.div (0 + ∑ i : Fin 8192, lossRow (sim a i) (Msk wp i) (Msk wn i)) (Ideal.ofBits .f32 0x46000000#32)

end Cert.SupCon

end
-- ==== Proof.KCases.lean ====
/-
  What the four running vectors (and, at the last block of a row, the output block) hold after each
  grid point, as one step over the blocks the point reads: over the reset values at the first block
  of a row, over what the point before left at the later ones.
-/
import proofs.«400907_j30777735643988_3_alg».proof.Proof.Gen.KernelIdeal.Frame
import proofs.«400907_j30777735643988_3_alg».proof.Proof.KPieces
import proofs.«400907_j30777735643988_3_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.KernelIdeal.Cases

open Cert.KernelIdeal Cert.KernelIdeal.Gen Cert.KernelIdeal.Step Cert.KernelIdeal.Pieces
open Cert.SupCon (gIdx)

variable (m : (ℓ : Loc nD τ sig) → Buf (Elt Ideal) ℓ)

/-! ## The grid and the windows' index maps, decided once over the 64 points -/

/-- Point `t` is row block `t / 8`, column block `t % 8`. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The features' window is the whole array at every point; the masks' windows are block (t / 8, t % 8);
    the output's window is block (t / 8, 0). -/
theorem idx_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-! ## The blocks a point reads, at their literal types -/

abbrev xb0 (c : Dev nD) (t : Fin cfg0.N) : Vec Ideal S8192x512 .bf16 := iblk m c 0 t
abbrev xb1 (c : Dev nD) (t : Fin cfg0.N) : Vec Ideal S1024x1024 .i32 := iblk m c 1 t
abbrev xb2 (c : Dev nD) (t : Fin cfg0.N) : Vec Ideal S1024x1024 .i32 := iblk m c 2 t

/-- The features' block is the whole normalized array. -/
theorem xb0_apply (c : Dev nD) (t : Fin cfg0.N) (R : Fin 8192) (k : Fin 512) :
    xb0 m c t (ix2 R k) = V m c main_v5 (ix2 R k) := by
  obtain ⟨h00, h01, -⟩ := idx_facts t
  unfold xb0 iblk
  rw [View.read_apply]
  show V m c main_v5 _ = V m c main_v5 _
  congr 1
  funext a
  apply Fin.ext
  match a with
  | ⟨0, _⟩ => show win0_0.index t 0 * 8192 + 1 * R.val = R.val; rw [h00]; omega
  | ⟨1, _⟩ => show win0_0.index t 1 * 512 + 1 * k.val = k.val; rw [h01]; omega

/-- The positives' mask block at (r, q) is the mask word at global row `1024 bi + r`, column `1024 bj + q`. -/
theorem xb1_apply (c : Dev nD) (t : Fin cfg0.N) (bi bj : Fin 8) (ht : t.val = 8 * bi.val + bj.val) (r q : Fin 1024) :
    xb1 m c t (ix2 r q) = V m c main_arg1 (ix2 (gIdx bi r) (gIdx bj q)) := by
  obtain ⟨-, -, h10, h11, -⟩ := idx_facts t
  unfold xb1 iblk
  rw [View.read_apply]
  show V m c main_arg1 _ = V m c main_arg1 _
  congr 1
  funext a
  apply Fin.ext
  match a with
  | ⟨0, _⟩ => show win0_1.index t 0 * 1024 + 1 * r.val = 1024 * bi.val + r.val; rw [h10]; omega
  | ⟨1, _⟩ => show win0_1.index t 1 * 1024 + 1 * q.val = 1024 * bj.val + q.val; rw [h11]; omega

/-- The negatives' mask block likewise. -/
theorem xb2_apply (c : Dev nD) (t : Fin cfg0.N) (bi bj : Fin 8) (ht : t.val = 8 * bi.val + bj.val) (r q : Fin 1024) :
    xb2 m c t (ix2 r q) = V m c main_arg2 (ix2 (gIdx bi r) (gIdx bj q)) := by
  obtain ⟨-, -, -, -, h20, h21, -⟩ := idx_facts t
  unfold xb2 iblk
  rw [View.read_apply]
  show V m c main_arg2 _ = V m c main_arg2 _
  congr 1
  funext a
  apply Fin.ext
  match a with
  | ⟨0, _⟩ => show win0_2.index t 0 * 1024 + 1 * r.val = 1024 * bi.val + r.val; rw [h20]; omega
  | ⟨1, _⟩ => show win0_2.index t 1 * 1024 + 1 * q.val = 1024 * bj.val + q.val; rw [h21]; omega

/-! ## The contents after a point, case by case and component by component -/

theorem A_0 (c : Dev nD) (t : Fin cfg0.N) (h0 : t.val % 8 = 0) (h1 : ¬t.val % 8 = 7) :
    (outsAt0 (F := Ideal) m c t.val t.isLt).2.1 = stepM (grid0.coords t) (xb0 m c t) (k0_pay2 (F := Ideal)) := by
  rw [outsAt0_A m c t h0 h1]
  dsimp only
  exact sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem A_1 (c : Dev nD) (t : Fin cfg0.N) (h0 : t.val % 8 = 0) (h1 : ¬t.val % 8 = 7) :
    (outsAt0 (F := Ideal) m c t.val t.isLt).2.2.1 = stepP (grid0.coords t) (xb0 m c t) (xb1 m c t) (k0_pay2 (F := Ideal)) (k0_pay3 (F := Ideal)) := by
  rw [outsAt0_A m c t h0 h1]
  dsimp only
  exact sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem A_2 (c : Dev nD) (t : Fin cfg0.N) (h0 : t.val % 8 = 0) (h1 : ¬t.val % 8 = 7) :
    (outsAt0 (F := Ideal) m c t.val t.isLt).2.2.2.1 = stepN (grid0.coords t) (xb0 m c t) (xb2 m c t) (k0_pay2 (F := Ideal)) (k0_pay4 (F := Ideal)) := by
  rw [outsAt0_A m c t h0 h1]
  dsimp only
  exact sout_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem A_3 (c : Dev nD) (t : Fin cfg0.N) (h0 : t.val % 8 = 0) (h1 : ¬t.val % 8 = 7) :
    (outsAt0 (F := Ideal) m c t.val t.isLt).2.2.2.2 = stepC (grid0.coords t) (xb1 m c t) (k0_pay5 (F := Ideal)) := by
  rw [outsAt0_A m c t h0 h1]
  dsimp only
  exact sout_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

theorem B_0 (c : Dev nD) (t : Fin cfg0.N) (h0 : ¬t.val % 8 = 0) (h1 : ¬t.val % 8 = 7) :
    (outsAt0 (F := Ideal) m c t.val t.isLt).2.1 = stepM (grid0.coords t) (xb0 m c t) (outsAt0 (F := Ideal) m c (t.val - 1) (Nat.lt_of_le_of_lt (Nat.sub_le _ _) t.isLt)).2.1 := by
  rw [outsAt0_B m c t h0 h1]
  dsimp only
  exact sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem B_1 (c : Dev nD) (t : Fin cfg0.N) (h0 : ¬t.val % 8 = 0) (h1 : ¬t.val % 8 = 7) :
    (outsAt0 (F := Ideal) m c t.val t.isLt).2.2.1 = stepP (grid0.coords t) (xb0 m c t) (xb1 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 := by
  rw [outsAt0_B m c t h0 h1]
  dsimp only
  exact sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem B_2 (c : Dev nD) (t : Fin cfg0.N) (h0 : ¬t.val % 8 = 0) (h1 : ¬t.val % 8 = 7) :
    (outsAt0 (F := Ideal) m c t.val t.isLt).2.2.2.1 = stepN (grid0.coords t) (xb0 m c t) (xb2 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.2.1 := by
  rw [outsAt0_B m c t h0 h1]
  dsimp only
  exact sout_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem B_3 (c : Dev nD) (t : Fin cfg0.N) (h0 : ¬t.val % 8 = 0) (h1 : ¬t.val % 8 = 7) :
    (outsAt0 (F := Ideal) m c t.val t.isLt).2.2.2.2 = stepC (grid0.coords t) (xb1 m c t) (outsAt0 (F := Ideal) m c (t.val - 1) (Nat.lt_of_le_of_lt (Nat.sub_le _ _) t.isLt)).2.2.2.2 := by
  rw [outsAt0_B m c t h0 h1]
  dsimp only
  exact sout_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem C_0 (c : Dev nD) (t : Fin cfg0.N) (h0 : ¬t.val % 8 = 0) (h1 : t.val % 8 = 7) :
    (outsAt0 (F := Ideal) m c t.val t.isLt).2.1 = stepM (grid0.coords t) (xb0 m c t) (outsAt0 (F := Ideal) m c (t.val - 1) (Nat.lt_of_le_of_lt (Nat.sub_le _ _) t.isLt)).2.1 := by
  rw [outsAt0_C m c t h0 h1]
  dsimp only
  exact sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem C_1 (c : Dev nD) (t : Fin cfg0.N) (h0 : ¬t.val % 8 = 0) (h1 : t.val % 8 = 7) :
    (outsAt0 (F := Ideal) m c t.val t.isLt).2.2.1 = stepP (grid0.coords t) (xb0 m c t) (xb1 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 := by
  rw [outsAt0_C m c t h0 h1]
  dsimp only
  exact sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem C_2 (c : Dev nD) (t : Fin cfg0.N) (h0 : ¬t.val % 8 = 0) (h1 : t.val % 8 = 7) :
    (outsAt0 (F := Ideal) m c t.val t.isLt).2.2.2.1 = stepN (grid0.coords t) (xb0 m c t) (xb2 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.2.1 := by
  rw [outsAt0_C m c t h0 h1]
  dsimp only
  exact sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem C_3 (c : Dev nD) (t : Fin cfg0.N) (h0 : ¬t.val % 8 = 0) (h1 : t.val % 8 = 7) :
    (outsAt0 (F := Ideal) m c t.val t.isLt).2.2.2.2 = stepC (grid0.coords t) (xb1 m c t) (outsAt0 (F := Ideal) m c (t.val - 1) (Nat.lt_of_le_of_lt (Nat.sub_le _ _) t.isLt)).2.2.2.2 := by
  rw [outsAt0_C m c t h0 h1]
  dsimp only
  exact sout_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

theorem C_out (c : Dev nD) (t : Fin cfg0.N) (h0 : ¬t.val % 8 = 0) (h1 : t.val % 8 = 7) :
    (outsAt0 (F := Ideal) m c t.val t.isLt).1
      = k0_pay1 (stepC (grid0.coords t) (xb1 m c t) (outsAt0 (F := Ideal) m c (t.val - 1) (Nat.lt_of_le_of_lt (Nat.sub_le _ _) t.isLt)).2.2.2.2) (stepN (grid0.coords t) (xb0 m c t) (xb2 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.2.1) (stepP (grid0.coords t) (xb0 m c t) (xb1 m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1) := by
  rw [outsAt0_C m c t h0 h1]
  dsimp only
  exact out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

end Cert.KernelIdeal.Cases

end
-- ==== Proof.KSim.lean ====
/-
  The similarity block and what is computed from it, read at an index on the extended reals.

  Entry (r, q) of the block at grid point (i, j) is the scaled inner product of row `1024 i + r` and
  row `1024 j + q` of the normalized features: the matrix product contracts the 512 features of both
  strips, and the named scale is the exact reciprocal of the reference's temperature word. The new
  running maximum of row r is the larger of the old one and the block row's maximum (a fold of
  `max` from `-∞`); the rescale factor is `exp (old - new)` and the block's exponentials are
  `exp (entry - new)`.
-/
import proofs.«400907_j30777735643988_3_alg».proof.Proof.KDefs
import proofs.«400907_j30777735643988_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.SimAt

open Idealize.ShloMosaic Idealize.ShloMosaic.TcCoe Idealize.ShloMosaic.ValueIdx
open Cert.KernelIdeal Cert.KernelIdeal.Gen Cert.KernelIdeal.Step
open Cert.SupCon (gIdx invT mNew simE)

/-- The named scale is the reciprocal of the reference's temperature word. -/
theorem named_invT :
    Named.named (F := Ideal) Cert.KernelIdeal.κ "inv_temperature" (φ := .f32) 0x41649249#32 = ((invT : ℝ) : EReal) := by
  unfold Cert.SupCon.invT
  exact IdealRules.named_const.ideal_named_scalar _ _ _ _ rfl

/-- The word `1024 b` of a block coordinate below 8 does not wrap in 32 bits: the offset it is cast to is
    `1024 b` itself. -/
theorem off_word (b : Fin 8) :
    (Scalar.indexCast (Scalar.muli (BitVec.ofNat 32 b.val) 1024#32)).toNat = 1024 * b.val := by
  revert b; decide

/-- The row strip starts at row `1024 · i 0`, column 0. -/
theorem k0_off1_eq (i : grid0.Coords) (bi : Fin 8) (hi : (i 0).val = bi.val) : k0_off1 i = ![1024 * bi.val, 0] := by
  show ![(Scalar.indexCast (Scalar.muli (BitVec.ofNat 32 (i 0).val) 1024#32)).toNat, 0] = _
  rw [hi, off_word]

/-- The column strip starts at row `1024 · i 1`, column 0. -/
theorem k0_off2_eq (i : grid0.Coords) (bj : Fin 8) (hj : (i 1).val = bj.val) : k0_off2 i = ![1024 * bj.val, 0] := by
  show ![(Scalar.indexCast (Scalar.muli (BitVec.ofNat 32 (i 1).val) 1024#32)).toNat, 0] = _
  rw [hj, off_word]

/-- The row strip at (r, k) is row `1024 · i 0 + r` of the resident array. -/
theorem rowStrip_apply (i : grid0.Coords) (bi : Fin 8) (hi : (i 0).val = bi.val) (x0 : FVec Ideal S8192x512 .bf16)
    (r : Fin 1024) (k : Fin 512) : rowStrip (F := Ideal) i x0 (ix2 r k) = x0 (ix2 (gIdx bi r) k) := by
  show x0 ((Rect.unit (s := S8192x512) (k0_off1 i) S1024x512.size (k0_off1_inb i)).idx (ix2 r k)) = _
  have e := k0_off1_eq i bi hi
  refine congrArg x0 (funext fun a => Fin.ext ?_)
  match a with
  | ⟨0, _⟩ =>
    show k0_off1 i 0 + 1 * r.val = 1024 * bi.val + r.val
    rw [e]; show 1024 * bi.val + 1 * r.val = _; omega
  | ⟨1, _⟩ =>
    show k0_off1 i 1 + 1 * k.val = k.val
    rw [e]; show 0 + 1 * k.val = _; omega

/-- The column strip at (q, k) is row `1024 · i 1 + q` of the resident array. -/
theorem colStrip_apply (i : grid0.Coords) (bj : Fin 8) (hj : (i 1).val = bj.val) (x0 : FVec Ideal S8192x512 .bf16)
    (q : Fin 1024) (k : Fin 512) : colStrip (F := Ideal) i x0 (ix2 q k) = x0 (ix2 (gIdx bj q) k) := by
  show x0 ((Rect.unit (s := S8192x512) (k0_off2 i) S1024x512.size (k0_off2_inb i)).idx (ix2 q k)) = _
  have e := k0_off2_eq i bj hj
  refine congrArg x0 (funext fun a => Fin.ext ?_)
  match a with
  | ⟨0, _⟩ =>
    show k0_off2 i 0 + 1 * q.val = 1024 * bj.val + q.val
    rw [e]; show 1024 * bj.val + 1 * q.val = _; omega
  | ⟨1, _⟩ =>
    show k0_off2 i 1 + 1 * k.val = k.val
    rw [e]; show 0 + 1 * k.val = _; omega

/-- The left operand's row is the output's row. -/
theorem dotL_0 (j : S1024x1024.Idx) (c : dot_S1024x512_S1024x512_S1024x1024_1_1_0_0_n_n.contr.Idx) :
    (dot_S1024x512_S1024x512_S1024x1024_1_1_0_0_n_n.lhsIdx j c 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's column is the contraction coordinate. -/
theorem dotL_1 (j : S1024x1024.Idx) (c : dot_S1024x512_S1024x512_S1024x1024_1_1_0_0_n_n.contr.Idx) :
    (dot_S1024x512_S1024x512_S1024x1024_1_1_0_0_n_n.lhsIdx j c 1).val = (c ⟨0, by decide⟩).val :=
  dot_S1024x512_S1024x512_S1024x1024_1_1_0_0_n_n.lhsIdx_val_of_single rfl j c
/-- The right operand's row is the output's column. -/
theorem dotR_0 (j : S1024x1024.Idx) (c : dot_S1024x512_S1024x512_S1024x1024_1_1_0_0_n_n.contr.Idx) :
    (dot_S1024x512_S1024x512_S1024x1024_1_1_0_0_n_n.rhsIdx j c 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's column is the contraction coordinate. -/
theorem dotR_1 (j : S1024x1024.Idx) (c : dot_S1024x512_S1024x512_S1024x1024_1_1_0_0_n_n.contr.Idx) :
    (dot_S1024x512_S1024x512_S1024x1024_1_1_0_0_n_n.rhsIdx j c 1).val = (c ⟨0, by decide⟩).val :=
  dot_S1024x512_S1024x512_S1024x1024_1_1_0_0_n_n.rhsIdx_val_of_single rfl j c

/-- The matrix product at (r, q): both operands are contracted along their 512 features. -/
theorem dot_apply (v7 v11 : FVec Ideal S1024x512 .bf16) (r q : Fin 1024) :
    FloatOps.matmul dot_S1024x512_S1024x512_S1024x1024_1_1_0_0_n_n none v7 v11 (constant S1024x1024 .f32 0x00000000#32) (ix2 r q)
      = ∑ k : Fin 512, v7 (ix2 r k) * v11 (ix2 q k) := by
  refine (Ideal.matmul_constant_zero_apply dot_S1024x512_S1024x512_S1024x1024_1_1_0_0_n_n none v7 v11 (ix2 r q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r q) ((contrEquiv1 dot_S1024x512_S1024x512_S1024x1024_1_1_0_0_n_n 512 rfl rfl).symm k) = ix2 r k := funext fun a => Fin.ext (by
    match a with
    | ⟨0, _⟩ => exact dotL_0 _ _
    | ⟨1, _⟩ => exact (dotL_1 _ _).trans hk)
  have er : dot_S1024x512_S1024x512_S1024x1024_1_1_0_0_n_n.rhsIdx (ix2 r q) ((contrEquiv1 dot_S1024x512_S1024x512_S1024x1024_1_1_0_0_n_n 512 rfl rfl).symm k) = ix2 q k := funext fun a => Fin.ext (by
    match a with
    | ⟨0, _⟩ => exact dotR_0 _ _
    | ⟨1, _⟩ => exact (dotR_1 _ _).trans hk)
  rw [el, er]

/-- The similarity block at (r, q): the inner product over the 512 features, times the scale. -/
theorem pay6_apply (v7 v11 : FVec Ideal S1024x512 .bf16) (r q : Fin 1024) :
    k0_pay6 (F := Ideal) v7 v11 (ix2 r q) = (∑ k : Fin 512, v7 (ix2 r k) * v11 (ix2 q k)) * ((invT : ℝ) : EReal) := by
  have e7 : shapeCast S1024x512 v7 shapeCasts_S1024x512_S1024x512 = v7 := shapeCast_self _ _
  have e11 : shapeCast S1024x512 v11 shapeCasts_S1024x512_S1024x512 = v11 := shapeCast_self _ _
  unfold k0_pay6
  show FloatOps.matmul dot_S1024x512_S1024x512_S1024x1024_1_1_0_0_n_n none (shapeCast S1024x512 v7 shapeCasts_S1024x512_S1024x512)
      (shapeCast S1024x512 v11 shapeCasts_S1024x512_S1024x512) (constant S1024x1024 .f32 0x00000000#32) (ix2 r q)
      * Named.named (F := Ideal) κ "inv_temperature" (φ := .f32) 0x41649249#32 = _
  rw [e7, e11, named_invT, dot_apply]

/-- The word of the maximum's accumulator is `-∞`. -/
theorem ofBits_negInf : Ideal.ofBits .f32 0xFF800000#32 = ⊥ := by
  simp [Ideal.ofBits, Ideal.ieee]

/-- Row r of the block with column q put back is the entry (r, q). -/
theorem lift_row (r q : Fin 1024) : reduces_S1024x1024_S1024.lift (ix1 r) q = ix2 r q := by
  funext a
  match a with
  | ⟨0, _⟩ => rfl
  | ⟨1, _⟩ => rfl

/-- The maximum of row r of a block, kept as a column: the fold of `max` from `-∞` over the row's 1024 entries. -/
theorem rowMax_apply (src : FVec Ideal S1024x1024 .f32) (r : Fin 1024) :
    shapeCast S1024x1 (multiReduction .maximumf [1] S1024 src 0xFF800000#32 reduces_S1024x1024_S1024 (.inl rfl) rfl)
        shapeCasts_S1024_S1024x1 (ix2 r 0)
      = (Finset.univ : Finset (Fin 1024)).fold max ⊥ (fun q => src (ix2 r q)) := by
  refine (shapeCast_apply _ shapeCasts_S1024_S1024x1 (ix2 r 0) (ix1 r) ?_).trans ?_
  · rw [Shape.rowMajor_val_one, Shape.rowMajor_val_two]
    show r.val = r.val * 1 + 0
    omega
  · refine (Ideal.multiReduction_maximumf_single src _ reduces_S1024x1024_S1024 (.inl rfl) rfl (ix1 r)).trans ?_
    show (Finset.univ : Finset (Fin 1024)).fold max (Ideal.ofBits .f32 0xFF800000#32)
        (fun q => src (reduces_S1024x1024_S1024.lift (ix1 r) q)) = _
    rw [ofBits_negInf]
    exact congrArg (fun f : Fin 1024 → EReal => (Finset.univ : Finset (Fin 1024)).fold max ⊥ f)
      (funext fun q => congrArg src (lift_row r q))

/-- The new running maximum of row r. -/
theorem pay10_apply (v7 v11 : FVec Ideal S1024x512 .bf16) (v33 : FVec Ideal S1024x1 .f32) (r : Fin 1024) :
    k0_pay10 (F := Ideal) v7 v11 v33 (ix2 r 0) = mNew (v33 (ix2 r 0)) (fun q => k0_pay6 (F := Ideal) v7 v11 (ix2 r q)) := by
  unfold k0_pay10 Cert.SupCon.mNew
  exact congrArg (max (v33 (ix2 r 0))) (rowMax_apply (k0_pay6 (F := Ideal) v7 v11) r)

/-- The rescale factor of row r. -/
theorem pay11_apply (v7 v11 : FVec Ideal S1024x512 .bf16) (v33 : FVec Ideal S1024x1 .f32) (r : Fin 1024) :
    k0_pay11 (F := Ideal) v7 v11 v33 (ix2 r 0) = Ideal.exp (v33 (ix2 r 0) - k0_pay10 (F := Ideal) v7 v11 v33 (ix2 r 0)) := by
  unfold k0_pay11
  rfl

/-- The block's exponentials. -/
theorem pay12_apply (v7 v11 : FVec Ideal S1024x512 .bf16) (v33 : FVec Ideal S1024x1 .f32) (r q : Fin 1024) :
    k0_pay12 (F := Ideal) v7 v11 v33 (ix2 r q)
      = Ideal.exp (k0_pay6 (F := Ideal) v7 v11 (ix2 r q) - k0_pay10 (F := Ideal) v7 v11 v33 (ix2 r 0)) := by
  unfold k0_pay12
  show Ideal.exp (k0_pay6 (F := Ideal) v7 v11 (ix2 r q)
      - broadcastTo S1024x1024 (k0_pay10 (F := Ideal) v7 v11 v33) broadcasts_S1024x1_S1024x1024 (ix2 r q)) = _
  rw [broadcastTo_apply _ broadcasts_S1024x1_S1024x1024 (ix2 r q) (ix2 r 0) (fun a => by
    match a with
    | ⟨0, _⟩ => rfl
    | ⟨1, _⟩ => rfl)]

/-- The maximum is stored as it is. -/
theorem pay16_eq (v34 : FVec Ideal S1024x1 .f32) : k0_pay16 (F := Ideal) v34 = v34 := by
  unfold k0_pay16
  exact shapeCast_self _ _

/-- The similarity block of the two strips at (r, q) is the similarity of the two global rows. -/
theorem sim_block_apply (i : grid0.Coords) (bi bj : Fin 8) (hi : (i 0).val = bi.val) (hj : (i 1).val = bj.val)
    (x0 : FVec Ideal S8192x512 .bf16) (r q : Fin 1024) :
    k0_pay6 (F := Ideal) (rowStrip i x0) (colStrip i x0) (ix2 r q)
      = simE (fun R k => x0 (ix2 R k)) (gIdx bi r) (gIdx bj q) := by
  refine (pay6_apply _ _ r q).trans ?_
  show _ = (∑ k : Fin 512, x0 (ix2 (gIdx bi r) k) * x0 (ix2 (gIdx bj q) k)) * ((invT : ℝ) : EReal)
  exact congrArg (· * ((invT : ℝ) : EReal)) (Finset.sum_congr rfl fun k _ => by
    rw [rowStrip_apply i bi hi x0 r k, colStrip_apply i bj hj x0 q k])

end Cert.KernelIdeal.SimAt

end
-- ==== Proof.KMask.lean ====
/-
  The masks, the masked sums, the count, the reset values and the row of the loss, read at an index
  on the extended reals.

  A mask bit at (r, q) of the block at grid point (i, j) is set when the mask word is not zero and
  the global row `1024 i + r` differs from the global column `1024 j + q` (the two iotas plus the block
  offsets, compared). A running sum after the point is the rescaled old sum plus the sum over the block
  row of the exponentials where the bit is set; the count adds the number of set bits (a set bit widened
  and converted is 1, a clear one 0). The reset values are `-∞` and zeros. The row of the loss is
  `(0 - (lp - log ln * cd)) / (cd or 1)`.
-/
import proofs.«400907_j30777735643988_3_alg».proof.Proof.KDefs
import proofs.«400907_j30777735643988_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.MaskAt

open Idealize.ShloMosaic Idealize.ShloMosaic.TcCoe Idealize.ShloMosaic.ValueIdx
open Cert.KernelIdeal Cert.KernelIdeal.Gen Cert.KernelIdeal.Step
open Cert.SupCon (gIdx rowOf)

/-! ## Literals -/

/-- The pattern of `-∞` denotes `⊥`. -/
theorem ofBits_neg_inf : Ideal.ofBits .f32 0xFF800000#32 = ⊥ := by simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-! ## Bits and words -/

/-- A compare for inequality gives the bit `1` exactly when the words differ. -/
theorem cmpi_ne_iff {w : Nat} {a b : BitVec w} : IntOp.cmpi .ne a b = 1#1 ↔ a ≠ b := by
  show BitVec.ofBool (a != b) = 1#1 ↔ a ≠ b
  rw [StableHlo.Predicate.ofBool_eq_one_iff, bne_iff_ne]

/-- The conjunction of two bits is `1` exactly when both are. -/
theorem and_bit : ∀ a b : BitVec 1, a &&& b = 1#1 ↔ a = 1#1 ∧ b = 1#1 := by decide

/-- A select on a bit is the first operand where the bit is `1`, the second otherwise. -/
theorem select_bit {α : Type} (b : BitVec 1) (x y : α) : Scalar.select b x y = if b = 1#1 then x else y := rfl

/-- Block offset plus lane as one word: `1024 b + r` is below `2^14`, nothing wraps. -/
theorem word_of_block (b : Fin 8) (r : Fin 1024) :
    IntOp.addi (Scalar.muli (BitVec.ofNat 32 b.val) 1024#32) (BitVec.ofNat 32 r.val)
      = BitVec.ofNat 32 (1024 * b.val + r.val) := by
  show BitVec.ofNat 32 b.val * 1024#32 + BitVec.ofNat 32 r.val = _
  apply BitVec.eq_of_toNat_eq
  simp only [BitVec.toNat_add, BitVec.toNat_mul, BitVec.toNat_ofNat]
  have := b.isLt; have := r.isLt
  omega

/-- Two such words differ exactly when the global row and the global column differ. -/
theorem word_ne_iff (bi bj : Fin 8) (r q : Fin 1024) :
    BitVec.ofNat 32 (1024 * bi.val + r.val) ≠ BitVec.ofNat 32 (1024 * bj.val + q.val) ↔ gIdx bi r ≠ gIdx bj q := by
  have := bi.isLt; have := bj.isLt; have := r.isLt; have := q.isLt
  constructor
  · intro h e
    apply h
    have e' : 1024 * bi.val + r.val = 1024 * bj.val + q.val := congrArg Fin.val e
    rw [e']
  · intro h e
    apply h
    apply Fin.ext
    show 1024 * bi.val + r.val = 1024 * bj.val + q.val
    have e' := congrArg BitVec.toNat e
    simp only [BitVec.toNat_ofNat] at e'
    omega

/-- A bit widened to 32 bits reads, as a signed integer, `1` when set and `0` when clear. -/
theorem setWidth_bit_toInt : ∀ b : BitVec 1, ((b.setWidth 32).toInt : ℤ) = if b = 1#1 then 1 else 0 := by decide

/-- So the widened bit converted to a float is `1` when set and `0` when clear. -/
theorem sitofp_bit (b : BitVec 1) :
    FloatOps.sitofp (F := Ideal) .f32 (b.setWidth 32) = if b = 1#1 then (1 : EReal) else 0 := by
  show (((b.setWidth 32).toInt : ℝ) : EReal) = _
  rw [setWidth_bit_toInt]
  split <;> simp

/-! ## The off-diagonal bit and the two masks -/

/-- The off-diagonal bit at (r, q) of the block at grid point (i, j): set when the global row
    `1024 i + r` is not the global column `1024 j + q`. -/
theorem pay7_apply (i : grid0.Coords) (bi bj : Fin 8) (hi : (i 0).val = bi.val) (hj : (i 1).val = bj.val)
    (r q : Fin 1024) :
    k0_pay7 i (ix2 r q) = 1#1 ↔ gIdx bi r ≠ gIdx bj q := by
  unfold k0_pay7
  show IntOp.cmpi .ne
      (IntOp.addi (Scalar.muli (BitVec.ofNat 32 (i 0).val) 1024#32) (iota .tc S1024x1024 32 [0] iota_S1024x1024_d0_w32 (ix2 r q)))
      (IntOp.addi (Scalar.muli (BitVec.ofNat 32 (i 1).val) 1024#32) (iota .tc S1024x1024 32 [1] iota_S1024x1024_d1_w32 (ix2 r q)))
        = 1#1 ↔ _
  rw [iota_single_apply, iota_single_apply, hi, hj]
  show IntOp.cmpi .ne
      (IntOp.addi (Scalar.muli (BitVec.ofNat 32 bi.val) 1024#32) (BitVec.ofNat 32 r.val))
      (IntOp.addi (Scalar.muli (BitVec.ofNat 32 bj.val) 1024#32) (BitVec.ofNat 32 q.val)) = 1#1 ↔ _
  rw [word_of_block, word_of_block, cmpi_ne_iff]
  exact word_ne_iff bi bj r q

/-- The positives' mask bit. -/
theorem pay8_apply (i : grid0.Coords) (bi bj : Fin 8) (hi : (i 0).val = bi.val) (hj : (i 1).val = bj.val)
    (v16 : IVec S1024x1024 32) (r q : Fin 1024) :
    k0_pay8 (F := Ideal) i v16 (ix2 r q) = 1#1 ↔ (v16 (ix2 r q) ≠ 0#32 ∧ gIdx bi r ≠ gIdx bj q) := by
  unfold k0_pay8
  show IntOp.cmpi .ne (v16 (ix2 r q)) 0#32 &&& k0_pay7 i (ix2 r q) = 1#1 ↔ _
  rw [and_bit, cmpi_ne_iff, pay7_apply i bi bj hi hj]

/-- The negatives' mask bit. -/
theorem pay9_apply (i : grid0.Coords) (bi bj : Fin 8) (hi : (i 0).val = bi.val) (hj : (i 1).val = bj.val)
    (v19 : IVec S1024x1024 32) (r q : Fin 1024) :
    k0_pay9 (F := Ideal) i v19 (ix2 r q) = 1#1 ↔ (v19 (ix2 r q) ≠ 0#32 ∧ gIdx bi r ≠ gIdx bj q) := by
  unfold k0_pay9
  show IntOp.cmpi .ne (v19 (ix2 r q)) 0#32 &&& k0_pay7 i (ix2 r q) = 1#1 ↔ _
  rw [and_bit, cmpi_ne_iff, pay7_apply i bi bj hi hj]

/-! ## A lane sum kept as a column -/

/-- The source index over row r with lane q inserted is (r, q). -/
theorem lift_row (r q : Fin 1024) :
    reduces_S1024x1024_S1024.lift (ix1 r) q = ix2 r q := by
  funext a
  match a with
  | ⟨0, _⟩ => rfl
  | ⟨1, _⟩ => rfl

/-- Row r of a lane sum kept as a column is the sum over the lanes of row r. -/
theorem rowsum_apply (v : FVec Ideal S1024x1024 .f32) (r : Fin 1024) :
    shapeCast S1024x1 (multiReduction .add [1] S1024 v 0x00000000#32 reduces_S1024x1024_S1024 (.inl rfl) rfl)
        shapeCasts_S1024_S1024x1 (ix2 r 0)
      = ∑ q : Fin 1024, v (ix2 r q) := by
  rw [shapeCast_apply _ _ (ix2 r 0) (ix1 r) (by
    rw [Shape.rowMajor_val_one, Shape.rowMajor_val_two]; show r.val = r.val * 1 + 0; omega)]
  refine (Ideal.multiReduction_add_single v _ reduces_S1024x1024_S1024 (.inl rfl) rfl (ix1 r)).trans ?_
  show ∑ q : Fin 1024, v (reduces_S1024x1024_S1024.lift (ix1 r) q) = _
  exact Finset.sum_congr rfl fun q _ => congrArg v (lift_row r q)

/-! ## The running sums and the count after the point -/

/-- The positives' running sum after the point, row r. -/
theorem pay13_apply (v29 : IVec S1024x1024 1) (v36 : FVec Ideal S1024x1 .f32) (v39 : FVec Ideal S1024x1024 .f32)
    (v44 : FVec Ideal S1024x1 .f32) (r : Fin 1024) :
    k0_pay13 (F := Ideal) v29 v36 v39 v44 (ix2 r 0)
      = v36 (ix2 r 0) * v44 (ix2 r 0) + ∑ q : Fin 1024, (if v29 (ix2 r q) = 1#1 then v39 (ix2 r q) else 0) := by
  unfold k0_pay13
  rw [shapeCast_self, addf_apply, mulf_apply, rowsum_apply]
  refine congrArg (v36 (ix2 r 0) * v44 (ix2 r 0) + ·) (Finset.sum_congr rfl fun q _ => ?_)
  rw [select_apply, broadcast_apply, select_bit]
  show (if v29 (ix2 r q) = 1#1 then v39 (ix2 r q) else Ideal.ofBits .f32 0x00000000#32) = _
  rw [Ideal.ofBits_zero_f32]

/-- The negatives' running sum after the point, row r. -/
theorem pay14_apply (v30 : IVec S1024x1024 1) (v36 : FVec Ideal S1024x1 .f32) (v39 : FVec Ideal S1024x1024 .f32)
    (v52 : FVec Ideal S1024x1 .f32) (r : Fin 1024) :
    k0_pay14 (F := Ideal) v30 v36 v39 v52 (ix2 r 0)
      = v36 (ix2 r 0) * v52 (ix2 r 0) + ∑ q : Fin 1024, (if v30 (ix2 r q) = 1#1 then v39 (ix2 r q) else 0) := by
  unfold k0_pay14
  rw [shapeCast_self, addf_apply, mulf_apply, rowsum_apply]
  refine congrArg (v36 (ix2 r 0) * v52 (ix2 r 0) + ·) (Finset.sum_congr rfl fun q _ => ?_)
  rw [select_apply, broadcast_apply, select_bit]
  show (if v30 (ix2 r q) = 1#1 then v39 (ix2 r q) else Ideal.ofBits .f32 0x00000000#32) = _
  rw [Ideal.ofBits_zero_f32]

/-- The positives' running count after the point, row r. -/
theorem pay15_apply (v29 : IVec S1024x1024 1) (v60 : FVec Ideal S1024x1 .f32) (r : Fin 1024) :
    k0_pay15 (F := Ideal) v29 v60 (ix2 r 0)
      = v60 (ix2 r 0) + ∑ q : Fin 1024, (if v29 (ix2 r q) = 1#1 then (1 : EReal) else 0) := by
  unfold k0_pay15
  rw [shapeCast_self, addf_apply, rowsum_apply]
  refine congrArg (v60 (ix2 r 0) + ·) (Finset.sum_congr rfl fun q _ => ?_)
  rw [sitofp_apply, extui_apply]
  exact sitofp_bit _

/-! ## The row of the loss -/

/-- The guarded divisor: the count, or one where the count is zero. -/
theorem select_oeq_zero (c : EReal) :
    Scalar.select (Ideal.cmp .oeq c 0) (1 : EReal) c = if c = 0 then 1 else c := by
  by_cases h : c = 0
  · rw [if_pos h, h]
    show Scalar.select (BitVec.ofBool (decide ((0 : EReal) = 0))) (1 : EReal) 0 = 1
    rw [decide_eq_true rfl]
    exact select_one _ _
  · rw [if_neg h]
    show Scalar.select (BitVec.ofBool (decide (c = 0))) (1 : EReal) c = c
    rw [decide_eq_false h]
    exact select_zero _ _

/-- The row of the loss from the count `v75`, the negatives' sum `v80` and the positives' sum `v82`. -/
theorem pay1_apply (v75 v80 v82 : FVec Ideal S1024x1 .f32) (r : Fin 1024) :
    k0_pay1 (F := Ideal) v75 v80 v82 (ix2 r 0) = rowOf (v82 (ix2 r 0)) (v80 (ix2 r 0)) (v75 (ix2 r 0)) := by
  unfold k0_pay1
  show Ideal.div (Ideal.ofBits .f32 0x00000000#32 - (v82 (ix2 r 0) - Ideal.log (v80 (ix2 r 0)) * v75 (ix2 r 0)))
      (Scalar.select (Ideal.cmp .oeq (v75 (ix2 r 0)) (Ideal.ofBits .f32 0x00000000#32)) (Ideal.ofBits .f32 0x3F800000#32)
        (v75 (ix2 r 0))) = _
  rw [Ideal.ofBits_zero_f32, ofBits_one, select_oeq_zero]
  unfold rowOf
  congr

/-! ## The reset values -/

/-- The reset value of the running maximum is `-∞`. -/
theorem pay2_apply (r : Fin 1024) : (k0_pay2 (F := Ideal)) (ix2 r 0) = ⊥ := by
  unfold k0_pay2
  rw [shapeCast_self]
  exact ofBits_neg_inf

/-- The reset values of the sums and of the count are zero. -/
theorem pay3_apply (r : Fin 1024) : (k0_pay3 (F := Ideal)) (ix2 r 0) = 0 := by
  unfold k0_pay3
  rw [shapeCast_self]
  exact Ideal.ofBits_zero_f32

theorem pay4_apply (r : Fin 1024) : (k0_pay4 (F := Ideal)) (ix2 r 0) = 0 := by
  unfold k0_pay4
  rw [shapeCast_self]
  exact Ideal.ofBits_zero_f32

theorem pay5_apply (r : Fin 1024) : (k0_pay5 (F := Ideal)) (ix2 r 0) = 0 := by
  unfold k0_pay5
  rw [shapeCast_self]
  exact Ideal.ofBits_zero_f32

end Cert.KernelIdeal.MaskAt

end
-- ==== Proof.KStep.lean ====
/-
  One grid point's step, row by row, in the specification's words.

  At grid point (i, j), row r of the stepped maximum is `mNew` of the old maximum of that row and
  the block row of similarities of global row `1024 i + r` with the global columns `1024 j + q`;
  the stepped sums are `lNew` over the same block row with the mask "word not zero, off the
  diagonal"; the stepped count is `cNew` with the positives' mask.
-/
import proofs.«400907_j30777735643988_3_alg».proof.Proof.KSim
import proofs.«400907_j30777735643988_3_alg».proof.Proof.KMask

noncomputable section

namespace Cert.KernelIdeal.StepAt

open Idealize.ShloMosaic Idealize.ShloMosaic.TcCoe Idealize.ShloMosaic.ValueIdx
open Cert.KernelIdeal Cert.KernelIdeal.Gen Cert.KernelIdeal.Step
open Cert.KernelIdeal.SimAt Cert.KernelIdeal.MaskAt
open Cert.SupCon (gIdx mNew lNew cNew simE)
open scoped Classical

/-- The block row of similarities of global row `1024 bi + r` at block column `bj`. -/
abbrev simRow (x0 : FVec Ideal S8192x512 .bf16) (bi bj : Fin 8) (r : Fin 1024) : Fin 1024 → EReal :=
  fun q => simE (fun R k => x0 (ix2 R k)) (gIdx bi r) (gIdx bj q)

/-- The mask of a block row: the word is not zero and the entry is off the diagonal. -/
def mskRow (w : IVec S1024x1024 32) (bi bj : Fin 8) (r : Fin 1024) : Fin 1024 → Prop :=
  fun q => w (ix2 r q) ≠ 0#32 ∧ gIdx bi r ≠ gIdx bj q

theorem stepM_apply (i : grid0.Coords) (bi bj : Fin 8) (hi : (i 0).val = bi.val) (hj : (i 1).val = bj.val)
    (x0 : FVec Ideal S8192x512 .bf16) (m : FVec Ideal S1024x1 .f32) (r : Fin 1024) :
    stepM (F := Ideal) i x0 m (ix2 r 0) = mNew (m (ix2 r 0)) (simRow x0 bi bj r) := by
  unfold stepM
  rw [pay16_eq, pay10_apply]
  exact congrArg (mNew (m (ix2 r 0))) (funext fun q => sim_block_apply i bi bj hi hj x0 r q)

/-- The masked block sum of exponentials, in either mask's words. -/
theorem masked_sum (i : grid0.Coords) (bi bj : Fin 8) (hi : (i 0).val = bi.val) (hj : (i 1).val = bj.val)
    (x0 : FVec Ideal S8192x512 .bf16) (bits : IVec S1024x1024 1) (w : IVec S1024x1024 32) (m : FVec Ideal S1024x1 .f32)
    (r : Fin 1024)
    (hb : ∀ q, bits (ix2 r q) = 1#1 ↔ (w (ix2 r q) ≠ 0#32 ∧ gIdx bi r ≠ gIdx bj q)) :
    (∑ q : Fin 1024, (if bits (ix2 r q) = 1#1 then k0_pay12 (F := Ideal) (rowStrip i x0) (colStrip i x0) m (ix2 r q) else 0))
      = ∑ q : Fin 1024, (if mskRow w bi bj r q then
          Ideal.exp (simRow x0 bi bj r q - mNew (m (ix2 r 0)) (simRow x0 bi bj r)) else 0) := by
  refine Finset.sum_congr rfl fun q _ => ?_
  have e12 : k0_pay12 (F := Ideal) (rowStrip i x0) (colStrip i x0) m (ix2 r q)
      = Ideal.exp (simRow x0 bi bj r q - mNew (m (ix2 r 0)) (simRow x0 bi bj r)) := by
    rw [pay12_apply, pay10_apply, sim_block_apply i bi bj hi hj x0 r q]
    exact congrArg (fun f => Ideal.exp (simRow x0 bi bj r q - mNew (m (ix2 r 0)) f))
      (funext fun q' => sim_block_apply i bi bj hi hj x0 r q')
  by_cases h : bits (ix2 r q) = 1#1
  · rw [if_pos h, if_pos (show mskRow w bi bj r q from (hb q).mp h), e12]
  · rw [if_neg h, if_neg (show ¬mskRow w bi bj r q from fun h' => h ((hb q).mpr h'))]

/-- The rescale factor of row r. -/
theorem alpha_apply (i : grid0.Coords) (bi bj : Fin 8) (hi : (i 0).val = bi.val) (hj : (i 1).val = bj.val)
    (x0 : FVec Ideal S8192x512 .bf16) (m : FVec Ideal S1024x1 .f32) (r : Fin 1024) :
    k0_pay11 (F := Ideal) (rowStrip i x0) (colStrip i x0) m (ix2 r 0)
      = Ideal.exp (m (ix2 r 0) - mNew (m (ix2 r 0)) (simRow x0 bi bj r)) := by
  rw [pay11_apply, pay10_apply]
  exact congrArg (fun f => Ideal.exp (m (ix2 r 0) - mNew (m (ix2 r 0)) f))
    (funext fun q' => sim_block_apply i bi bj hi hj x0 r q')

theorem stepP_apply (i : grid0.Coords) (bi bj : Fin 8) (hi : (i 0).val = bi.val) (hj : (i 1).val = bj.val)
    (x0 : FVec Ideal S8192x512 .bf16) (x1 : IVec S1024x1024 32) (m lp : FVec Ideal S1024x1 .f32) (r : Fin 1024) :
    stepP (F := Ideal) i x0 x1 m lp (ix2 r 0)
      = lNew (mskRow x1 bi bj r) (m (ix2 r 0)) (lp (ix2 r 0)) (simRow x0 bi bj r) := by
  unfold stepP lNew
  rw [pay13_apply, alpha_apply i bi bj hi hj x0 m r,
    masked_sum i bi bj hi hj x0 (k0_pay8 (F := Ideal) i x1) x1 m r (fun q => pay8_apply i bi bj hi hj x1 r q)]

theorem stepN_apply (i : grid0.Coords) (bi bj : Fin 8) (hi : (i 0).val = bi.val) (hj : (i 1).val = bj.val)
    (x0 : FVec Ideal S8192x512 .bf16) (x2 : IVec S1024x1024 32) (m ln : FVec Ideal S1024x1 .f32) (r : Fin 1024) :
    stepN (F := Ideal) i x0 x2 m ln (ix2 r 0)
      = lNew (mskRow x2 bi bj r) (m (ix2 r 0)) (ln (ix2 r 0)) (simRow x0 bi bj r) := by
  unfold stepN lNew
  rw [pay14_apply, alpha_apply i bi bj hi hj x0 m r,
    masked_sum i bi bj hi hj x0 (k0_pay9 (F := Ideal) i x2) x2 m r (fun q => pay9_apply i bi bj hi hj x2 r q)]

theorem stepC_apply (i : grid0.Coords) (bi bj : Fin 8) (hi : (i 0).val = bi.val) (hj : (i 1).val = bj.val)
    (x1 : IVec S1024x1024 32) (cd : FVec Ideal S1024x1 .f32) (r : Fin 1024) :
    stepC (F := Ideal) i x1 cd (ix2 r 0) = cNew (mskRow x1 bi bj r) (cd (ix2 r 0)) := by
  unfold stepC cNew
  rw [pay15_apply]
  refine congrArg (cd (ix2 r 0) + ·) (Finset.sum_congr rfl fun q _ => ?_)
  by_cases h : k0_pay8 (F := Ideal) i x1 (ix2 r q) = 1#1
  · rw [if_pos h, if_pos (show mskRow x1 bi bj r q from (pay8_apply i bi bj hi hj x1 r q).mp h)]
  · rw [if_neg h, if_neg (show ¬mskRow x1 bi bj r q from fun h' => h ((pay8_apply i bi bj hi hj x1 r q).mpr h'))]

end Cert.KernelIdeal.StepAt

end
-- ==== Proof.Online.lean ====
/-
  The block-by-block computation of a row reaches the whole-row quantities.

  For a row `s` of real similarities and a mask `p`, one step of `mNew` / `lNew` / `cNew` over
  block `j` takes the quantities of the first `1024 j` columns to those of the first `1024 (j + 1)`:
  the maximum of a union is the maximum of the maxima, and
    exp (M_old - M_new) * Σ exp (s c - M_old) = Σ exp (s c - M_new)
  because all the numbers involved are real once one column has been seen; before any column the
  maximum is `-∞`, its exponential difference is `exp (-∞) = 0`, and the sums are empty.

  The second part restates the whole-row quantities as the reference computes them, and shows that
  its masked sum  Σ_c (e_c p_c - L) p_c  over a 0/1 mask is  Σ_c e_c p_c - L · Σ_c p_c  also when
  `L = log 0 = -∞`: then every masked-in term is `+∞`, every other term is `∞ · 0 = 0`, and both
  sides are `+∞` if some column is masked in and `0` if none is.

  The third part: finite features normalize to finite features (the divisor is a real number at
  least `eps > 0`), and the similarity of a real matrix is the real similarity.
-/
import proofs.«400907_j30777735643988_3_alg».proof.Proof.Spec

noncomputable section

namespace Cert.SupCon

open Idealize.ShloMosaic
open scoped Classical

variable (s : Fin 8192 → ℝ) (p n : Fin 8192 → Prop)

/-- Block `j` of the row, as extended reals. -/
def blk (j : Fin 8) : Fin 1024 → EReal := fun q => (s (gIdx j q) : EReal)

namespace Online

/-! ## The definitions, restated as equations -/

theorem mem_cols (W : ℕ) (c : Fin 8192) : c ∈ cols W ↔ c.val < W := by
  show c ∈ Finset.univ.filter (fun c : Fin 8192 => c.val < W) ↔ _
  simp

theorem gIdx_val (j : Fin 8) (q : Fin 1024) : (gIdx j q).val = 1024 * j.val + q.val := rfl

theorem pM_def (W : ℕ) : pM s W = (cols W).sup fun c => (s c : EReal) := rfl

theorem pL_def (W : ℕ) :
    pL s p W = ∑ c ∈ cols W, (if p c then Ideal.exp ((s c : EReal) - pM s W) else 0) := rfl

theorem pC_def (W : ℕ) : pC p W = ∑ c ∈ cols W, (if p c then (1 : EReal) else 0) := rfl

/-! ## Finite sums and the coercion -/

/-- The coercion of a finite sum of real numbers is the sum of the coercions. -/
theorem coe_sum {ι : Type} (S : Finset ι) (f : ι → ℝ) :
    ((∑ c ∈ S, f c : ℝ) : EReal) = ∑ c ∈ S, (f c : EReal) := by
  induction S using Finset.induction_on with
  | empty => simp
  | insert a S ha ih => rw [Finset.sum_insert ha, Finset.sum_insert ha, EReal.coe_add, ih]

/-! ## The columns, block by block -/

theorem cols_zero : cols 0 = ∅ := by
  ext c
  rw [mem_cols]
  simp

theorem cols_full : cols 8192 = Finset.univ := by
  ext c
  rw [mem_cols]
  simp

theorem gIdx_inj (j : Fin 8) : Function.Injective (gIdx j) := by
  intro a b h
  have h' := congrArg Fin.val h
  rw [gIdx_val, gIdx_val] at h'
  exact Fin.ext (by omega)

/-- The first `1024 (j + 1)` columns are the first `1024 j` and block `j`. -/
theorem cols_succ (j : Fin 8) :
    cols (1024 * (j.val + 1)) = cols (1024 * j.val) ∪ Finset.univ.image (gIdx j) := by
  ext c
  rw [Finset.mem_union, mem_cols, mem_cols, Finset.mem_image]
  constructor
  · intro h
    by_cases hc : c.val < 1024 * j.val
    · exact Or.inl hc
    · refine Or.inr ⟨⟨c.val - 1024 * j.val, by omega⟩, Finset.mem_univ _, ?_⟩
      apply Fin.ext
      rw [gIdx_val]
      show 1024 * j.val + (c.val - 1024 * j.val) = c.val
      omega
  · rintro (h | ⟨q, -, rfl⟩)
    · omega
    · rw [gIdx_val]
      have := q.isLt
      omega

theorem cols_disj (j : Fin 8) :
    Disjoint (cols (1024 * j.val)) (Finset.univ.image (gIdx j)) := by
  rw [Finset.disjoint_left]
  intro c hc hq
  rw [mem_cols] at hc
  obtain ⟨q, -, rfl⟩ := Finset.mem_image.mp hq
  rw [gIdx_val] at hc
  omega

theorem sum_cols_succ (j : Fin 8) (f : Fin 8192 → EReal) :
    ∑ c ∈ cols (1024 * (j.val + 1)), f c
      = ∑ c ∈ cols (1024 * j.val), f c + ∑ q : Fin 1024, f (gIdx j q) := by
  rw [cols_succ, Finset.sum_union (cols_disj j),
    Finset.sum_image (fun a _ b _ h => gIdx_inj j h)]

theorem sup_cols_succ (j : Fin 8) (f : Fin 8192 → EReal) :
    (cols (1024 * (j.val + 1))).sup f
      = max ((cols (1024 * j.val)).sup f)
          ((Finset.univ : Finset (Fin 1024)).sup fun q => f (gIdx j q)) := by
  rw [cols_succ, Finset.sup_union, Finset.sup_image]
  rfl

/-! ## Once a column has been seen the maximum is a real number -/

theorem pM_real_of_pos (W : ℕ) (hW : 0 < W) :
    ∃ M : ℝ, pM s W = (M : EReal) ∧ ∀ c ∈ cols W, s c ≤ M := by
  have hne : (cols W).Nonempty := ⟨⟨0, by omega⟩, (mem_cols W _).mpr hW⟩
  obtain ⟨c, -, h⟩ := Finset.exists_mem_eq_sup (cols W) hne (fun c => (s c : EReal))
  refine ⟨s c, h, fun d hd => ?_⟩
  have hle := Finset.le_sup (f := fun c => (s c : EReal)) hd
  rw [h] at hle
  exact EReal.coe_le_coe_iff.mp hle

/-- A masked exponential term against a real maximum is a real number. -/
theorem term_coe (M : ℝ) (c : Fin 8192) :
    (if p c then Ideal.exp ((s c : EReal) - (M : EReal)) else 0)
      = ((if p c then Real.exp (s c - M) else 0 : ℝ) : EReal) := by
  split_ifs
  · rw [← EReal.coe_sub, Ideal.exp_coe]
  · rw [EReal.coe_zero]

theorem one_coe (c : Fin 8192) :
    (if p c then (1 : EReal) else 0) = ((if p c then (1 : ℝ) else 0 : ℝ) : EReal) := by
  split_ifs
  · rw [EReal.coe_one]
  · rw [EReal.coe_zero]

theorem pL_of_real (W : ℕ) (M : ℝ) (h : pM s W = (M : EReal)) :
    pL s p W = ((∑ c ∈ cols W, (if p c then Real.exp (s c - M) else 0) : ℝ) : EReal) := by
  rw [coe_sum, pL_def, h]
  exact Finset.sum_congr rfl fun c _ => term_coe s p M c

/-! ## The two float words -/

theorem invT_def : invT = 134217728 / 9395241 := rfl

/-- The temperature word is the real number `9395241 / 2^27`. -/
theorem temperature_word :
    Ideal.ofBits .f32 0x3D8F5C29#32 = ((9395241 / 134217728 : ℝ) : EReal) := by
  simp [Ideal.ofBits, Ideal.ieee, -EReal.coe_mul]; norm_num

/-- The floor of the norm is a positive real number. -/
theorem eps_word : ∃ e : ℝ, 0 < e ∧ Ideal.ofBits .f32 0x322BCC77#32 = (e : EReal) := by
  refine ⟨11258999 / 1125899906842624, by norm_num, ?_⟩
  simp [Ideal.ofBits, Ideal.ieee, -EReal.coe_mul]; norm_num

end Online

open Online

/-! ## Before any column -/

theorem pM_zero : pM s 0 = ⊥ := by
  rw [pM_def, cols_zero, Finset.sup_empty]

theorem pL_zero : pL s p 0 = 0 := by
  rw [pL_def, cols_zero, Finset.sum_empty]

theorem pC_zero : pC p 0 = 0 := by
  rw [pC_def, cols_zero, Finset.sum_empty]

/-! ## One block more -/

theorem mNew_step (j : Fin 8) :
    mNew (pM s (1024 * j.val)) (blk s j) = pM s (1024 * (j.val + 1)) := by
  rw [pM_def s (1024 * (j.val + 1)), sup_cols_succ]
  rfl

theorem lNew_step (j : Fin 8) :
    lNew (fun q => p (gIdx j q)) (pM s (1024 * j.val)) (pL s p (1024 * j.val)) (blk s j)
      = pL s p (1024 * (j.val + 1)) := by
  show Ideal.exp (pM s (1024 * j.val) - mNew (pM s (1024 * j.val)) (blk s j)) * pL s p (1024 * j.val)
      + ∑ q : Fin 1024, (if p (gIdx j q) then
          Ideal.exp ((s (gIdx j q) : EReal) - mNew (pM s (1024 * j.val)) (blk s j)) else 0)
      = pL s p (1024 * (j.val + 1))
  rw [mNew_step, pL_def s p (1024 * (j.val + 1)), sum_cols_succ]
  have key : Ideal.exp (pM s (1024 * j.val) - pM s (1024 * (j.val + 1))) * pL s p (1024 * j.val)
      = ∑ c ∈ cols (1024 * j.val),
          (if p c then Ideal.exp ((s c : EReal) - pM s (1024 * (j.val + 1))) else 0) := by
    rcases Nat.eq_zero_or_pos j.val with h0 | hpos
    · rw [h0, Nat.mul_zero, pL_zero, cols_zero, Finset.sum_empty, mul_zero]
    · obtain ⟨M, hM, -⟩ := pM_real_of_pos s (1024 * j.val) (by omega)
      obtain ⟨M', hM', -⟩ := pM_real_of_pos s (1024 * (j.val + 1)) (by omega)
      rw [pL_of_real s p _ M hM, hM, hM', ← EReal.coe_sub, Ideal.exp_coe, ← EReal.coe_mul,
        Finset.sum_congr rfl (fun c _ => term_coe s p M' c), ← coe_sum, Finset.mul_sum,
        EReal.coe_eq_coe_iff]
      refine Finset.sum_congr rfl fun c _ => ?_
      split_ifs
      · rw [← Real.exp_add]
        exact congrArg Real.exp (by ring)
      · rw [mul_zero]
  rw [key]

theorem cNew_step (j : Fin 8) :
    cNew (fun q => p (gIdx j q)) (pC p (1024 * j.val)) = pC p (1024 * (j.val + 1)) := by
  rw [pC_def p (1024 * (j.val + 1)), sum_cols_succ]
  rfl

/-! ## The whole row, as the reference computes it -/

/-- The row maximum as a fold of `max` from `-∞` over all columns. -/
theorem pM_full : pM s 8192 = (Finset.univ : Finset (Fin 8192)).fold max ⊥ (fun c => (s c : EReal)) := by
  rw [pM_def, cols_full]
  rfl

/-- The whole-row maximum is a real number bounding every column. -/
theorem pM_full_real : ∃ M : ℝ, pM s 8192 = (M : EReal) ∧ ∀ c, s c ≤ M := by
  obtain ⟨M, hM, hb⟩ := pM_real_of_pos s 8192 (by norm_num)
  exact ⟨M, hM, fun c => hb c ((mem_cols 8192 c).mpr c.isLt)⟩

theorem pL_full : pL s p 8192 = ∑ c : Fin 8192, (if p c then Ideal.exp ((s c : EReal) - pM s 8192) else 0) := by
  rw [pL_def, cols_full]

theorem pC_full : pC p 8192 = ∑ c : Fin 8192, (if p c then (1 : EReal) else 0) := by
  rw [pC_def, cols_full]

/-- The masked sums are non-negative real numbers. -/
theorem pL_full_real : ∃ l : ℝ, 0 ≤ l ∧ pL s p 8192 = (l : EReal) := by
  obtain ⟨M, hM, -⟩ := pM_full_real s
  refine ⟨∑ c ∈ cols 8192, (if p c then Real.exp (s c - M) else 0), ?_, pL_of_real s p 8192 M hM⟩
  refine Finset.sum_nonneg fun c _ => ?_
  split_ifs
  · exact (Real.exp_pos _).le
  · exact le_rfl

theorem pC_full_real : ∃ k : ℝ, 0 ≤ k ∧ pC p 8192 = (k : EReal) := by
  refine ⟨∑ c ∈ cols 8192, (if p c then (1 : ℝ) else 0), ?_, ?_⟩
  · refine Finset.sum_nonneg fun c _ => ?_
    split_ifs
    · exact zero_le_one
    · exact le_rfl
  · rw [coe_sum, pC_def]
    exact Finset.sum_congr rfl fun c _ => one_coe p c

/-- The reference's masked sum over a 0/1 mask, with `L = log` of the negatives' sum (which may be
    `-∞`), negated, is the kernel's `0 - (lp - L * cd)`. -/
theorem masked_sum_eq :
    -(0 + ∑ c : Fin 8192,
        ((Ideal.exp ((s c : EReal) - pM s 8192) * (if p c then (1 : EReal) else 0)
            - Ideal.log (pL s n 8192)) * (if p c then (1 : EReal) else 0)))
      = 0 - (pL s p 8192 - Ideal.log (pL s n 8192) * pC p 8192) := by
  obtain ⟨M, hM, -⟩ := pM_full_real s
  obtain ⟨l, -, hln⟩ := pL_full_real s n
  have hLp : pL s p 8192
      = ((∑ c : Fin 8192, (if p c then Real.exp (s c - M) else 0) : ℝ) : EReal) := by
    rw [pL_of_real s p 8192 M hM, cols_full]
  have hCp : pC p 8192 = ((∑ c : Fin 8192, (if p c then (1 : ℝ) else 0) : ℝ) : EReal) := by
    rw [coe_sum, pC_full]
    exact Finset.sum_congr rfl fun c _ => one_coe p c
  rw [hM, hln, Ideal.log_coe]
  by_cases hl0 : l ≤ 0
  · -- the negatives' sum is zero: its logarithm is `-∞`
    rw [if_pos hl0]
    have hterm : ∀ c : Fin 8192,
        ((Ideal.exp ((s c : EReal) - (M : EReal)) * (if p c then (1 : EReal) else 0) - ⊥)
            * (if p c then (1 : EReal) else 0)) = if p c then (⊤ : EReal) else 0 := by
      intro c
      split_ifs
      · rw [mul_one, mul_one, ← EReal.coe_sub, Ideal.exp_coe, EReal.coe_sub_bot]
      · rw [mul_zero]
    rw [Finset.sum_congr rfl (fun c _ => hterm c)]
    by_cases hp : ∃ c, p c
    · obtain ⟨c0, hc0⟩ := hp
      have hsum : ∑ c : Fin 8192, (if p c then (⊤ : EReal) else 0) = ⊤ := by
        apply top_le_iff.mp
        have h := Finset.single_le_sum (f := fun c : Fin 8192 => if p c then (⊤ : EReal) else 0)
          (s := Finset.univ) (fun c _ => by split_ifs; exacts [le_top, le_rfl]) (Finset.mem_univ c0)
        rwa [if_pos hc0] at h
      have hpos : (0 : EReal) < pC p 8192 := by
        rw [pC_full]
        have h := Finset.single_le_sum (f := fun c : Fin 8192 => if p c then (1 : EReal) else 0)
          (s := Finset.univ) (fun c _ => by split_ifs; exacts [zero_le_one, le_rfl]) (Finset.mem_univ c0)
        rw [if_pos hc0] at h
        exact lt_of_lt_of_le zero_lt_one h
      rw [hsum, EReal.bot_mul_of_pos hpos, hLp, EReal.coe_sub_bot, zero_add, EReal.neg_top,
        sub_eq_add_neg, EReal.neg_top, EReal.add_bot]
    · have hnp : ∀ c, ¬ p c := fun c hc => hp ⟨c, hc⟩
      have h1 : ∑ c : Fin 8192, (if p c then (⊤ : EReal) else 0) = 0 :=
        Finset.sum_eq_zero fun c _ => if_neg (hnp c)
      have h2 : pL s p 8192 = 0 := by
        rw [pL_full]
        exact Finset.sum_eq_zero fun c _ => if_neg (hnp c)
      have h3 : pC p 8192 = 0 := by
        rw [pC_full]
        exact Finset.sum_eq_zero fun c _ => if_neg (hnp c)
      rw [h1, h2, h3, mul_zero, zero_add, neg_zero, sub_zero, sub_zero]
  · -- the logarithm is a real number: every term is real
    rw [if_neg hl0]
    have hterm : ∀ c : Fin 8192,
        ((Ideal.exp ((s c : EReal) - (M : EReal)) * (if p c then (1 : EReal) else 0)
            - ((Real.log l : ℝ) : EReal)) * (if p c then (1 : EReal) else 0))
          = (((if p c then Real.exp (s c - M) else 0)
              - Real.log l * (if p c then (1 : ℝ) else 0) : ℝ) : EReal) := by
      intro c
      split_ifs
      · rw [mul_one, mul_one, ← EReal.coe_sub, Ideal.exp_coe, ← EReal.coe_sub, mul_one]
      · rw [mul_zero, mul_zero, sub_zero, EReal.coe_zero]
    rw [Finset.sum_congr rfl (fun c _ => hterm c), ← coe_sum, hLp, hCp, zero_add,
      ← EReal.coe_mul, ← EReal.coe_sub, ← EReal.coe_neg, ← EReal.coe_zero, ← EReal.coe_sub,
      EReal.coe_eq_coe_iff, Finset.sum_sub_distrib, Finset.mul_sum, zero_sub]

/-- The reference's sum of the negatives' masked exponentials (a product with a 0/1 mask). -/
theorem neg_sum_eq :
    0 + ∑ c : Fin 8192, Ideal.exp ((s c : EReal) - pM s 8192) * (if n c then (1 : EReal) else 0) = pL s n 8192 := by
  rw [zero_add, pL_full]
  refine Finset.sum_congr rfl fun c _ => ?_
  split_ifs
  · rw [mul_one]
  · rw [mul_zero]

/-- The reference's count of positives. -/
theorem card_sum_eq : 0 + ∑ c : Fin 8192, (if p c then (1 : EReal) else 0) = pC p 8192 := by
  rw [zero_add, pC_full]

/-! ## Finite features -/

/-- Finite features normalize to finite features. -/
theorem fnE_real (x : Fin 8192 → Fin 512 → EReal) (hx : ∀ i k, ∃ r : ℝ, x i k = (r : EReal)) :
    ∀ i k, ∃ r : ℝ, fnE x i k = (r : EReal) := by
  choose rx hrx using hx
  obtain ⟨e, he, hew⟩ := eps_word
  intro i k
  have hsum : (0 + ∑ k : Fin 512, x i k * x i k)
      = ((∑ k : Fin 512, rx i k * rx i k : ℝ) : EReal) := by
    rw [zero_add, coe_sum]
    exact Finset.sum_congr rfl fun k _ => by rw [hrx i k, EReal.coe_mul]
  have hnn : 0 ≤ ∑ k : Fin 512, rx i k * rx i k :=
    Finset.sum_nonneg fun k _ => mul_self_nonneg _
  have hnorm : normRow x i
      = ((max (Real.sqrt (∑ k : Fin 512, rx i k * rx i k)) e : ℝ) : EReal) := by
    show max (Ideal.sqrt (0 + ∑ k : Fin 512, x i k * x i k)) (Ideal.ofBits .f32 0x322BCC77#32) = _
    rw [hsum, hew, Ideal.sqrt_coe, if_neg (not_lt.mpr hnn)]
    exact (EReal.coe_strictMono.monotone.map_max).symm
  have hd : max (Real.sqrt (∑ k : Fin 512, rx i k * rx i k)) e ≠ 0 :=
    (lt_of_lt_of_le he (le_max_right _ _)).ne'
  refine ⟨rx i k * (1 / max (Real.sqrt (∑ k : Fin 512, rx i k * rx i k)) e), ?_⟩
  show Ideal.div (x i k) (normRow x i) = _
  rw [hnorm, Ideal.div_coe hd, hrx i k, EReal.coe_mul]

/-- The similarity of a matrix of real numbers is the real similarity. -/
theorem simE_coe (a : Fin 8192 → Fin 512 → ℝ) (i j : Fin 8192) :
    simE (fun i k => (a i k : EReal)) i j = (sim a i j : EReal) := by
  show (∑ k : Fin 512, (a i k : EReal) * (a j k : EReal)) * ((invT : ℝ) : EReal)
    = (((∑ k : Fin 512, a i k * a j k) * invT : ℝ) : EReal)
  rw [EReal.coe_mul, coe_sum, Finset.sum_congr rfl (fun k _ => EReal.coe_mul (a i k) (a j k))]

/-- Dividing by the reference's temperature word is multiplying by its reciprocal. -/
theorem div_temperature (z : EReal) :
    Ideal.div z (Ideal.ofBits .f32 0x3D8F5C29#32) = z * ((invT : ℝ) : EReal) := by
  have h : (1 / (9395241 / 134217728 : ℝ)) = invT := by
    rw [invT_def]
    norm_num
  rw [temperature_word, Ideal.div_coe (by norm_num), h]

end Cert.SupCon

end
-- ==== Proof.KInv.lean ====
/-
  The running vectors hold the row quantities of the columns seen so far.

  After the point of row block `bi`, column block `bj`, row r of the four running vectors holds,
  for the global row `1024 bi + r`, the maximum, the two masked sums of exponentials and the count
  over the first `1024 (bj + 1)` columns. By induction on the point: at the first block of a row
  the step starts from the reset values, which are the quantities of no column at all
  (`-∞`, 0, 0, 0); later it starts from what the point before left; and one step over block `bj`
  takes the quantities of `1024 bj` columns to those of `1024 (bj + 1)`. At the last block the
  stored row of the loss is therefore the row of the specification.
-/
import proofs.«400907_j30777735643988_3_alg».proof.Proof.KCases
import proofs.«400907_j30777735643988_3_alg».proof.Proof.KStep
import proofs.«400907_j30777735643988_3_alg».proof.Proof.Online

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Step Cert.KernelIdeal.Cases
open Cert.KernelIdeal.StepAt Cert.KernelIdeal.MaskAt
open Cert.SupCon

variable (m : (ℓ : Loc nD τ sig) → Buf (Elt Ideal) ℓ)

/-- The positives' mask words as the region finds them. -/
abbrev wP (c : Dev nD) : Fin 8192 → Fin 8192 → BitVec 32 := fun i j => V m c main_arg1 (ix2 i j)
/-- The negatives' mask words as the region finds them. -/
abbrev wN (c : Dev nD) : Fin 8192 → Fin 8192 → BitVec 32 := fun i j => V m c main_arg2 (ix2 i j)

variable (a : Fin 8192 → Fin 512 → ℝ)

/-- The block row of similarities is block `bj` of the real row of similarities. -/
theorem simRow_eq (x0 : FVec Ideal S8192x512 .bf16) (hx0 : ∀ R k, x0 (ix2 R k) = (a R k : EReal)) (bi bj : Fin 8)
    (r : Fin 1024) : simRow x0 bi bj r = blk (sim a (gIdx bi r)) bj := by
  funext q
  show simE (fun R k => x0 (ix2 R k)) (gIdx bi r) (gIdx bj q) = ((sim a (gIdx bi r) (gIdx bj q) : ℝ) : EReal)
  rw [show (fun R k => x0 (ix2 R k)) = fun R k => (a R k : EReal) from funext fun R => funext fun k => hx0 R k]
  exact simE_coe a _ _

/-- The mask of a block row is the specification's mask of the global row at the block's columns. -/
theorem mskRow_eq (x1 : IVec S1024x1024 32) (w : Fin 8192 → Fin 8192 → BitVec 32) (bi bj : Fin 8)
    (h1 : ∀ r q, x1 (ix2 r q) = w (gIdx bi r) (gIdx bj q)) (r : Fin 1024) :
    mskRow x1 bi bj r = fun q => Msk w (gIdx bi r) (gIdx bj q) := by
  funext q
  unfold mskRow Msk
  rw [h1 r q]

/-- One step at point `t` = (bi, bj), row r, from the quantities of `1024 bj` columns. -/
theorem step_all (c : Dev nD) (ha : ∀ R k, V m c main_v5 (ix2 R k) = (a R k : EReal)) (t : Fin cfg0.N) (bi bj : Fin 8)
    (ht : t.val = 8 * bi.val + bj.val) (r : Fin 1024) (M LP LN CD : FVec Ideal S1024x1 .f32)
    (hM : M (ix2 r 0) = pM (sim a (gIdx bi r)) (1024 * bj.val))
    (hLP : LP (ix2 r 0) = pL (sim a (gIdx bi r)) (Msk (wP m c) (gIdx bi r)) (1024 * bj.val))
    (hLN : LN (ix2 r 0) = pL (sim a (gIdx bi r)) (Msk (wN m c) (gIdx bi r)) (1024 * bj.val))
    (hCD : CD (ix2 r 0) = pC (Msk (wP m c) (gIdx bi r)) (1024 * bj.val)) :
    stepM (F := Ideal) (grid0.coords t) (xb0 m c t) M (ix2 r 0) = pM (sim a (gIdx bi r)) (1024 * (bj.val + 1))
    ∧ stepP (F := Ideal) (grid0.coords t) (xb0 m c t) (xb1 m c t) M LP (ix2 r 0)
        = pL (sim a (gIdx bi r)) (Msk (wP m c) (gIdx bi r)) (1024 * (bj.val + 1))
    ∧ stepN (F := Ideal) (grid0.coords t) (xb0 m c t) (xb2 m c t) M LN (ix2 r 0)
        = pL (sim a (gIdx bi r)) (Msk (wN m c) (gIdx bi r)) (1024 * (bj.val + 1))
    ∧ stepC (F := Ideal) (grid0.coords t) (xb1 m c t) CD (ix2 r 0) = pC (Msk (wP m c) (gIdx bi r)) (1024 * (bj.val + 1)) := by
  have hN : cfg0.N = 64 := N_0
  have hlt := t.isLt
  have hi : ((grid0.coords t) 0).val = bi.val := by have := (coords_val t).1; omega
  have hj : ((grid0.coords t) 1).val = bj.val := by have := (coords_val t).2; omega
  have hx0 : ∀ R k, xb0 m c t (ix2 R k) = (a R k : EReal) := fun R k => (xb0_apply m c t R k).trans (ha R k)
  have hs := simRow_eq a (xb0 m c t) hx0 bi bj r
  have hp := mskRow_eq (xb1 m c t) (wP m c) bi bj (fun r q => xb1_apply m c t bi bj ht r q) r
  have hn := mskRow_eq (xb2 m c t) (wN m c) bi bj (fun r q => xb2_apply m c t bi bj ht r q) r
  refine ⟨?_, ?_, ?_, ?_⟩
  · refine (stepM_apply (grid0.coords t) bi bj hi hj (xb0 m c t) M r).trans ?_
    rw [hs, hM]
    exact mNew_step _ bj
  · refine (stepP_apply (grid0.coords t) bi bj hi hj (xb0 m c t) (xb1 m c t) M LP r).trans ?_
    rw [hs, hp, hM, hLP]
    exact lNew_step _ _ bj
  · refine (stepN_apply (grid0.coords t) bi bj hi hj (xb0 m c t) (xb2 m c t) M LN r).trans ?_
    rw [hs, hn, hM, hLN]
    exact lNew_step _ _ bj
  · refine (stepC_apply (grid0.coords t) bi bj hi hj (xb1 m c t) CD r).trans ?_
    rw [hp, hCD]
    exact cNew_step _ bj

/-- Row r of the four running vectors after point `n` = (bi, bj) holds the quantities of the first
    `1024 (bj + 1)` columns of global row `1024 bi + r`. -/
def Holds (c : Dev nD) (n : ℕ) (hn : n < cfg0.N) (bi bj : Fin 8) (r : Fin 1024) : Prop :=
  (outsAt0 (F := Ideal) m c n hn).2.1 (ix2 r 0) = pM (sim a (gIdx bi r)) (1024 * (bj.val + 1))
  ∧ (outsAt0 (F := Ideal) m c n hn).2.2.1 (ix2 r 0) = pL (sim a (gIdx bi r)) (Msk (wP m c) (gIdx bi r)) (1024 * (bj.val + 1))
  ∧ (outsAt0 (F := Ideal) m c n hn).2.2.2.1 (ix2 r 0) = pL (sim a (gIdx bi r)) (Msk (wN m c) (gIdx bi r)) (1024 * (bj.val + 1))
  ∧ (outsAt0 (F := Ideal) m c n hn).2.2.2.2 (ix2 r 0) = pC (Msk (wP m c) (gIdx bi r)) (1024 * (bj.val + 1))

theorem holds (c : Dev nD) (ha : ∀ R k, V m c main_v5 (ix2 R k) = (a R k : EReal)) :
    ∀ (n : ℕ) (hn : n < cfg0.N) (bi bj : Fin 8), n = 8 * bi.val + bj.val → ∀ r : Fin 1024, Holds m a c n hn bi bj r := by
  intro n
  induction n using Nat.strong_induction_on with
  | _ n ih =>
    intro hn bi bj hnb r
    have hN : cfg0.N = 64 := N_0
    by_cases h0 : n % 8 = 0
    · have hbj : bj.val = 0 := by omega
      have h1 : ¬n % 8 = 7 := by omega
      have hW : 1024 * bj.val = 0 := by omega
      have st := step_all m a c ha ⟨n, hn⟩ bi bj hnb r (k0_pay2 (F := Ideal)) (k0_pay3 (F := Ideal)) (k0_pay4 (F := Ideal))
        (k0_pay5 (F := Ideal))
        (by rw [pay2_apply, hW]; exact (pM_zero _).symm) (by rw [pay3_apply, hW]; exact (pL_zero _ _).symm)
        (by rw [pay4_apply, hW]; exact (pL_zero _ _).symm) (by rw [pay5_apply, hW]; exact (pC_zero _).symm)
      have e0 : (outsAt0 (F := Ideal) m c n hn).2.1 = _ := A_0 m c ⟨n, hn⟩ h0 h1
      have e1 : (outsAt0 (F := Ideal) m c n hn).2.2.1 = _ := A_1 m c ⟨n, hn⟩ h0 h1
      have e2 : (outsAt0 (F := Ideal) m c n hn).2.2.2.1 = _ := A_2 m c ⟨n, hn⟩ h0 h1
      have e3 : (outsAt0 (F := Ideal) m c n hn).2.2.2.2 = _ := A_3 m c ⟨n, hn⟩ h0 h1
      unfold Holds
      rw [e0, e1, e2, e3]
      exact st
    · have hbj : 1 ≤ bj.val := by omega
      have hb' : bj.val - 1 < 8 := by omega
      have hprev := ih (n - 1) (by omega) (by omega) bi ⟨bj.val - 1, hb'⟩ (by show n - 1 = 8 * bi.val + (bj.val - 1); omega) r
      unfold Holds at hprev
      have hW : 1024 * (bj.val - 1 + 1) = 1024 * bj.val := by omega
      simp only [hW] at hprev
      obtain ⟨pM', pP', pN', pC'⟩ := hprev
      have st := step_all m a c ha ⟨n, hn⟩ bi bj hnb r _ _ _ _ pM' pP' pN' pC'
      unfold Holds
      by_cases h1 : n % 8 = 7
      · have e0 : (outsAt0 (F := Ideal) m c n hn).2.1 = _ := C_0 m c ⟨n, hn⟩ h0 h1
        have e1 : (outsAt0 (F := Ideal) m c n hn).2.2.1 = _ := C_1 m c ⟨n, hn⟩ h0 h1
        have e2 : (outsAt0 (F := Ideal) m c n hn).2.2.2.1 = _ := C_2 m c ⟨n, hn⟩ h0 h1
        have e3 : (outsAt0 (F := Ideal) m c n hn).2.2.2.2 = _ := C_3 m c ⟨n, hn⟩ h0 h1
        rw [e0, e1, e2, e3]
        exact st
      · have e0 : (outsAt0 (F := Ideal) m c n hn).2.1 = _ := B_0 m c ⟨n, hn⟩ h0 h1
        have e1 : (outsAt0 (F := Ideal) m c n hn).2.2.1 = _ := B_1 m c ⟨n, hn⟩ h0 h1
        have e2 : (outsAt0 (F := Ideal) m c n hn).2.2.2.1 = _ := B_2 m c ⟨n, hn⟩ h0 h1
        have e3 : (outsAt0 (F := Ideal) m c n hn).2.2.2.2 = _ := B_3 m c ⟨n, hn⟩ h0 h1
        rw [e0, e1, e2, e3]
        exact st

/-- The block of the loss stored at the last column block of row block `bi`: row r is the row of the
    specification for global row `1024 bi + r`. -/
theorem out_row (c : Dev nD) (ha : ∀ R k, V m c main_v5 (ix2 R k) = (a R k : EReal)) (t : Fin cfg0.N) (bi : Fin 8)
    (ht : t.val = 8 * bi.val + 7) (r : Fin 1024) :
    (outsAt0 (F := Ideal) m c t.val t.isLt).1 (ix2 r 0)
      = lossRow (sim a (gIdx bi r)) (Msk (wP m c) (gIdx bi r)) (Msk (wN m c) (gIdx bi r)) := by
  have h0 : ¬t.val % 8 = 0 := by omega
  have h1 : t.val % 8 = 7 := by omega
  have hh := holds m a c ha t.val t.isLt bi 7 ht r
  unfold Holds at hh
  rw [C_1 m c t h0 h1, C_2 m c t h0 h1, C_3 m c t h0 h1] at hh
  obtain ⟨-, hP, hN, hC⟩ := hh
  rw [C_out m c t h0 h1, pay1_apply, hP, hN, hC]
  rfl

end Cert.KernelIdeal.Inv

end
-- ==== Proof.KFinal.lean ====
/-
  The array of rows the region leaves.

  Only the last column block of each row block writes its output block back; that block is rows
  `1024 bi …` of the array of loss rows, and the eight written blocks cover the array. So after the
  region the array holds, at row R, the row of the specification for R.
-/
import proofs.«400907_j30777735643988_3_alg».proof.Proof.KInv

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Cases Cert.KernelIdeal.Inv
open Cert.SupCon

variable (m : (ℓ : Loc nD τ sig) → Buf (Elt Ideal) ℓ) (a : Fin 8192 → Fin 512 → ℝ)

/-- The row of the specification for global row R, with the masks as the region finds them. -/
def rowL (c : Dev nD) (R : Fin 8192) : EReal := lossRow (sim a R) (Msk (wP m c) R) (Msk (wN m c) R)

/-- The array of rows. -/
def G (c : Dev nD) : Buf (Elt Ideal) ((c : Thread nD τ).loc main_v6) :=
  fun i => rowL m a c ⟨(i 0).val, idx2_lt0 i⟩

/-- What a writing point writes back is its block of the array of rows. -/
theorem flushed_eq (c : Dev nD) (ha : ∀ R k, V m c main_v5 (ix2 R k) = (a R k : EReal)) (t : Fin cfg0.N)
    (hf : (cfg0.win 3).flush t = true) :
    (dats (F := Ideal) m 0 c).flushed 3 t = ((cfg0.win 3).blk t).view.read (Elt Ideal) (G m a c) := by
  have hN : cfg0.N = 64 := N_0
  have h7 : t.val % 8 = 7 := (flush0_3 t).mp hf
  have hlt : t.val < 64 := by have := t.isLt; omega
  have hb : t.val / 8 < 8 := by omega
  have ht : t.val = 8 * (⟨t.val / 8, hb⟩ : Fin 8).val + 7 := by
    show t.val = 8 * (t.val / 8) + 7
    omega
  obtain ⟨-, -, -, -, -, -, h30, h31⟩ := idx_facts t
  show (cfg0.win 3).cut (grid0.coords t) ((dats (F := Ideal) m 0 c).after 3 t) = _
  rw [after0_3]
  funext y
  obtain ⟨r, z, rfl⟩ : ∃ (r : Fin 1024) (z : Fin 1), y = ix2 r z := ⟨y 0, y 1, eq_ix2 y⟩
  obtain rfl : z = 0 := Subsingleton.elim _ _
  rw [View.read_apply]
  show (outsAt0 (F := Ideal) m c t.val t.isLt).1 (ix2 r 0) = _
  rw [out_row m a c ha t ⟨t.val / 8, hb⟩ ht r]
  show rowL m a c (gIdx ⟨t.val / 8, hb⟩ r) = rowL m a c ⟨_, _⟩
  congr 1
  apply Fin.ext
  show 1024 * (t.val / 8) + r.val = win0_3.index t 0 * 1024 + 1 * r.val
  rw [h30]
  omega

/-- After the region the output array is the array of rows. -/
theorem final (c : Dev nD) (ha : ∀ R k, V m c main_v5 (ix2 R k) = (a R k : EReal)) :
    (dats (F := Ideal) m 0 c).arrAt 3 cfg0.N = G m a c := by
  refine (dats (F := Ideal) m 0 c).arrAt_eq_of_cover 3 (G m a c) (fun t hf => flushed_eq m a c ha t hf) fun i => ?_
  have hN : cfg0.N = 64 := N_0
  have hi0 : (i 0 : Nat) < 8192 := (i 0).isLt
  have hi1 : (i 1 : Nat) < 1 := (i 1).isLt
  have hb : 8 * ((i 0 : Nat) / 1024) + 7 < cfg0.N := by rw [hN]; omega
  obtain ⟨-, -, -, -, -, -, h30, h31⟩ := idx_facts ⟨8 * ((i 0 : Nat) / 1024) + 7, hb⟩
  have q0 : win0_3.index ⟨8 * ((i 0 : Nat) / 1024) + 7, hb⟩ (0 : Fin 2) = (i 0 : Nat) / 1024 := by
    rw [h30]
    show (8 * ((i 0 : Nat) / 1024) + 7) / 8 = (i 0 : Nat) / 1024
    omega
  refine ⟨⟨8 * ((i 0 : Nat) / 1024) + 7, hb⟩, (flush0_3 _).mpr ?_, ?_⟩
  · show (8 * ((i 0 : Nat) / 1024) + 7) % 8 = 7
    omega
  · show i ∈ ((View.whole main_v6).slice (win0_3.rect ⟨8 * ((i 0 : Nat) / 1024) + 7, hb⟩)).set
    rw [View.set_slice_whole, Rect.mem_set_unit]
    intro ax
    match ax with
    | ⟨0, _⟩ =>
      show win0_3.index ⟨8 * ((i 0 : Nat) / 1024) + 7, hb⟩ 0 * win0_3.size 0 ≤ (i 0 : Nat) ∧ (i 0 : Nat) < win0_3.index ⟨8 * ((i 0 : Nat) / 1024) + 7, hb⟩ 0 * win0_3.size 0 + win0_3.xsize (grid0.coords ⟨8 * ((i 0 : Nat) / 1024) + 7, hb⟩) 0
      rw [q0, show win0_3.size 0 = 1024 from by decide +kernel, show win0_3.xsize (grid0.coords ⟨8 * ((i 0 : Nat) / 1024) + 7, hb⟩) 0 = 1024 from rfl]
      omega
    | ⟨1, _⟩ =>
      show win0_3.index ⟨8 * ((i 0 : Nat) / 1024) + 7, hb⟩ 1 * win0_3.size 1 ≤ (i 1 : Nat) ∧ (i 1 : Nat) < win0_3.index ⟨8 * ((i 0 : Nat) / 1024) + 7, hb⟩ 1 * win0_3.size 1 + win0_3.xsize (grid0.coords ⟨8 * ((i 0 : Nat) / 1024) + 7, hb⟩) 1
      rw [h31, show win0_3.size 1 = 1 from by decide +kernel, show win0_3.xsize (grid0.coords ⟨8 * ((i 0 : Nat) / 1024) + 7, hb⟩) 1 = 1 from rfl]
      omega

end Cert.KernelIdeal.Final

end
-- ==== Proof.KFn.lean ====
/-
  What the region finds in the normalized-features array: the host operations before the region
  compute, from the features `x`, the array `x i k / max (sqrt (0 + Σ_k x i k ²)) eps` (the change of
  format to the matmul's input type is the identity on extended reals).
-/
import proofs.«400907_j30777735643988_3_alg».proof.Proof.Gen.KernelIdeal.Frame.Runs
import proofs.«400907_j30777735643988_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Fn

open Cert.KernelIdeal Cert.KernelIdeal.Gen
open Cert.SupCon (fnE normRow)

variable (m : (ℓ : Loc nD τ sig) → Buf (Elt Ideal) ℓ)

/-- The sum of squares of row R: the host's sum over the second axis of x·x, from 0. -/
theorem sumsq_apply (x : FVec Ideal S8192x512 .f32) (R : Fin 8192) :
    Host.reduceAdd (F := Ideal) (mulf x x) (constant (F := Ideal) S_ .f32 0x00000000#32)
        Facts₀.reducesTo_S8192x512_S8192_d1 Facts₀.h_S_ (ix1 R)
      = 0 + ∑ k : Fin 512, x (ix2 R k) * x (ix2 R k) := by
  show Ideal.hostReduceAdd Facts₀.reducesTo_S8192x512_S8192_d1 (mulf x x) (Ideal.ofBits .f32 0x00000000#32) (ix1 R) = _
  rw [Ideal.hostReduceAdd_single Facts₀.reducesTo_S8192x512_S8192_d1 (by decide), Ideal.ofBits_zero_f32]
  refine congrArg (_ + ·) (Finset.sum_congr rfl fun k _ => ?_)
  rw [mulf_apply]
  exact congrArg (fun j => x j * x j) (funext fun a => Fin.ext (by match a with | ⟨0, _⟩ => rfl | ⟨1, _⟩ => rfl))

/-- The divisor of row R as the host operations compute it, at (R, 0) of the column array. -/
theorem norm_apply (x : FVec Ideal S8192x512 .f32) (R : Fin 8192) :
    maximumf
        (Host.sqrt (F := Ideal) (broadcastInDim S8192x1 ![0] Facts₀.bcast_S8192_S8192x1_0
          (Host.reduceAdd (F := Ideal) (mulf x x) (constant (F := Ideal) S_ .f32 0x00000000#32)
            Facts₀.reducesTo_S8192x512_S8192_d1 Facts₀.h_S_)))
        (broadcastInDim S8192x1 ![] Facts₀.bcast_S_S8192x1 (constant (F := Ideal) S_ .f32 0x322BCC77#32))
        (ix2 R (0 : Fin 1))
      = normRow (fun i k => x (ix2 i k)) R := by
  rw [maximumf_apply]
  show max (Ideal.sqrt (broadcastInDim (s := S8192) S8192x1 ![0] Facts₀.bcast_S8192_S8192x1_0 _ (ix2 R (0 : Fin 1))))
      (Ideal.ofBits .f32 0x322BCC77#32) = _
  rw [broadcastInDim_apply _ Facts₀.bcast_S8192_S8192x1_0 _ (ix2 R (0 : Fin 1)) (ix1 R) (fun a => match a with
    | ⟨0, _⟩ => by show R.val = if (8192 : Nat) = 1 then 0 else R.val; rw [if_neg (by decide)]), sumsq_apply]
  rfl

/-- The host operations before the region, read at (R, k): the feature divided by its row's divisor. -/
theorem chain_apply (x : FVec Ideal S8192x512 .f32) (R : Fin 8192) (k : Fin 512) :
    truncf .bf16
        (Host.divf (F := Ideal) x
          (broadcastInDim S8192x512 ![0, 1] Facts₀.bcast_S8192x1_S8192x512_0_1
            (maximumf
              (Host.sqrt (F := Ideal) (broadcastInDim S8192x1 ![0] Facts₀.bcast_S8192_S8192x1_0
                (Host.reduceAdd (F := Ideal) (mulf x x) (constant (F := Ideal) S_ .f32 0x00000000#32)
                  Facts₀.reducesTo_S8192x512_S8192_d1 Facts₀.h_S_)))
              (broadcastInDim S8192x1 ![] Facts₀.bcast_S_S8192x1 (constant (F := Ideal) S_ .f32 0x322BCC77#32)))))
        Facts₀.bitsLt_bf16_f32 (ix2 R k)
      = fnE (fun i k => x (ix2 i k)) R k := by
  rw [truncf_apply]
  show Ideal.div (x (ix2 R k)) (broadcastInDim (s := S8192x1) S8192x512 ![0, 1] Facts₀.bcast_S8192x1_S8192x512_0_1 _ (ix2 R k)) = _
  rw [broadcastInDim_apply _ Facts₀.bcast_S8192x1_S8192x512_0_1 _ (ix2 R k) (ix2 R (0 : Fin 1)) (fun a => match a with
    | ⟨0, _⟩ => by show R.val = if (8192 : Nat) = 1 then 0 else R.val; rw [if_neg (by decide)]
    | ⟨1, _⟩ => by show 0 = if (1 : Nat) = 1 then 0 else k.val; rw [if_pos rfl]), norm_apply]
  rfl

/-- The normalized features as the region finds them. -/
theorem fn_apply (c : Dev nD) (R : Fin 8192) (k : Fin 512) :
    V m c main_v5 (ix2 R k) = fnE (fun i k => m ((c : Thread nD τ).loc main_arg0) (ix2 i k)) R k := by
  dsimp only [V, V0]
  simp only [hostOps0, hostOps0_1, List.flatten_cons, List.flatten_nil, List.append_nil, List.cons_append, List.nil_append]
  after_results
  simp only [StableHlo.TRef.ofBuf, StableHlo.TRef.toBuf, cast_eq]
  exact chain_apply (m ((c : Thread nD τ).loc main_arg0)) R k

end Cert.KernelIdeal.Fn

end
-- ==== Proof.KRun.lean ====
/-
  The kernel program's run, read: its result is the mean of the rows of the specification.

  After the region the output array holds the rows of the loss; the two host operations after the
  region sum the array (the initial value 0 plus the sum over its 8192 × 1 indices, which is the sum
  over the rows) and divide by 8192.
-/
import proofs.«400907_j30777735643988_3_alg».proof.Proof.KFinal
import proofs.«400907_j30777735643988_3_alg».proof.Proof.KFn
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Cases Cert.KernelIdeal.Inv Cert.KernelIdeal.Final
open Cert.SupCon

variable (m : (ℓ : Loc nD τ sig) → Buf (Elt Ideal) ℓ) (ρ : Dev nD → PrngReg)

/-- A sum over the indices of an 8192 × 1 array of a function of the row is the sum over the rows. -/
theorem sum_rows (f : Fin 8192 → EReal) :
    (∑ i : S8192x1.Idx, f ⟨(i 0).val, idx2_lt0 i⟩) = ∑ R : Fin 8192, f R := by
  refine Fintype.sum_equiv
    { toFun := fun i => (⟨(i 0).val, idx2_lt0 i⟩ : Fin 8192)
      invFun := fun R => ix2 R (0 : Fin 1)
      left_inv := fun i => by
        funext d
        match d with
        | ⟨0, _⟩ => rfl
        | ⟨1, _⟩ => exact Fin.ext (by have h1 : (i 1).val < 1 := idx2_lt1 i; show 0 = (i 1).val; omega)
      right_inv := fun R => rfl } _ _ (fun i => rfl)

/-- The result of the host operations after the region. -/
theorem tail_eq (c : Dev nD) (a : Fin 8192 → Fin 512 → ℝ) (ha : ∀ R k, V m c main_v5 (ix2 R k) = (a R k : EReal)) :
    Pipeline.afterTail₀ cfgs (dats (F := Ideal) m) 0 (V0 m) [hostOps1] c main_v8
      = fun _ => lossTotal a (wP m c) (wN m c) := by
  unfold Pipeline.afterTail₀
  show StableHlo.after hostOps1 _ (Proc.devRef .tc main_v8) = _
  after_results
  have e : Pipeline.withArrays (cfgs 0).spec c (V0 m c) (fun w => (dats (F := Ideal) m 0 c).arrAt w (cfgs 0).N)
      (Proc.tc.devRef main_v6) = G m a c :=
    (Pipeline.withArrays_arr spec0 launch0.win.arr_inj c (V0 m c) (fun w => (dats (F := Ideal) m 0 c).arrAt w cfg0.N) 3).trans
      (final m a c ha)
  rw [e]
  funext j
  have hs : Host.reduceAdd (F := Ideal) (G m a c) (constant (F := Ideal) S_ .f32 0#32) reducesTo_S8192x1_S_d0_1 h_S_ j
      = 0 + ∑ R : Fin 8192, rowL m a c R := by
    simp only [Host.reduceAdd, Ideal.hostReduceAdd_def]
    rw [Ideal.hostReduceAdd_total reducesTo_S8192x1_S_d0_1 (fun b => b.elim0) (G m a c) _ j, constant_apply,
      Ideal.ofBits_zero_f32]
    exact congrArg (0 + ·) (sum_rows fun R => rowL m a c R)
  show Ideal.div (Host.reduceAdd (F := Ideal) (G m a c) (constant (F := Ideal) S_ .f32 0#32) reducesTo_S8192x1_S_d0_1 h_S_ j)
      (Ideal.ofBits .f32 0x46000000#32) = _
  rw [hs]
  rfl

/-- The kernel program's run: every weakly fair execution terminates with the result at the mean of the rows of
    the specification and the arguments unchanged. -/
theorem run (a : Dev nD → Fin 8192 → Fin 512 → ℝ) (ha : ∀ c R k, V m c main_v5 (ix2 R k) = (a c R k : EReal)) :
    θ_run defs (onTc (τ := τ) (main (F := Ideal))) ⟨m, fun _ => 0, ρ⟩ (fun r => ∀ c : Dev nD,
      r.2.mem ((c.tc : Thread nD τ).loc main_v8) = (fun _ => lossTotal (a c) (wP m c) (wN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans (tail_eq m c (a c) (ha c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.RefSim.lean ====
/-
  The reference up to its exponentials, read at an index on the extended reals.

  Its normalized features are `x i k / max (sqrt (0 + Σ_k x i k ²)) eps`; its similarity (R, C) is the
  inner product of rows R and C of them (the second operand is the transpose) divided by the
  temperature word, which is the product with the exact reciprocal; its row maximum is the fold of
  `max` from `-∞` over the row; its exponentials are `exp (similarity - row maximum)`.
-/
import proofs.«400907_j30777735643988_3_alg».proof.Proof.RefRead
import proofs.«400907_j30777735643988_3_alg».proof.Proof.Spec
import proofs.«400907_j30777735643988_3_alg».proof.Proof.Online

noncomputable section

namespace Cert.ReferenceIdeal.RefSim

open Idealize.ShloMosaic Idealize.ShloMosaic.TcCoe Idealize.ShloMosaic.ValueIdx
open Cert.ReferenceIdeal Cert.ReferenceIdeal.Gen Cert.ReferenceIdeal.Read
open Cert.SupCon (fnE sim pM)

/-- Row `i` of the features, entry `k'`: the index the row sum reads, whatever column it is asked at. -/
private theorem idx_row (i : Fin 8192) (k k' : Fin 512) :
    idx_main_call0_v1 (idx_main_call0_v2 (idx_main_v15 (ix2 i k))) k' = ix2 i k' :=
  funext fun a => Fin.ext (by match a with | ⟨0, _⟩ => rfl | ⟨1, _⟩ => rfl)

/-- The reference's normalized features. -/
theorem fn_apply (x0 : (⟨S8192x512, .f32⟩ : BufTy).Contents (Elt Ideal)) (i : Fin 8192) (k : Fin 512) :
    val_main_v16 (F := Ideal) x0 (ix2 i k) = fnE (fun i k => x0 (ix2 i k)) i k := by
  delta Cert.SupCon.fnE Cert.SupCon.normRow
  rw [val_main_v16_apply, val_main_v15_apply, val_main_v14_apply, val_main_v13_apply, val_main_cst_0_apply,
    val_main_v12_apply, val_main_call0_v2_apply, val_main_call0_v1_apply, val_main_call0_cst_apply]
  simp only [val_main_call0_v0_apply, idx_row, Ideal.hostDivf_def, Ideal.maximumf_def, Ideal.hostUnary_sqrt_def,
    Ideal.mulf_def, Ideal.ofBits_def, Ideal.ofBits_zero_f32]

/-- The left operand of the inner product at (R, C), term `k`: entry (R, k). -/
private theorem lidx_row (R C : Fin 8192) (k : Fin 512) : lidx_main_v18 (ix2 R C) k = ix2 R k :=
  funext fun a => Fin.ext (by match a with | ⟨0, _⟩ => rfl | ⟨1, _⟩ => rfl)

/-- The right operand is the transpose: its entry (k, C) is entry (C, k) of the normalized features. -/
private theorem ridx_row (R C : Fin 8192) (k : Fin 512) : idx_main_v17 (ridx_main_v18 (ix2 R C) k) = ix2 C k :=
  funext fun a => Fin.ext (by match a with | ⟨0, _⟩ => rfl | ⟨1, _⟩ => rfl)

/-- The reference's similarity of rows R and C of real normalized features. -/
theorem sim_apply (x0 : (⟨S8192x512, .f32⟩ : BufTy).Contents (Elt Ideal)) (a : Fin 8192 → Fin 512 → ℝ)
    (ha : ∀ i k, val_main_v16 (F := Ideal) x0 (ix2 i k) = (a i k : EReal)) (R C : Fin 8192) :
    val_main_v20 (F := Ideal) x0 (ix2 R C) = ((sim a R C : ℝ) : EReal) := by
  rw [val_main_v20_apply, val_main_v19_apply, val_main_cst_1_apply, val_main_v18_apply]
  simp only [val_main_v17_apply, lidx_row, ridx_row, ha, Ideal.hostDivf_def, Ideal.ofBits_def]
  rw [Cert.SupCon.div_temperature, ← Cert.SupCon.simE_coe]
  rfl

/-- The row maximum drops axis 1 of the similarities. -/
private theorem reduces_row : S8192x8192.Reduces [1] S8192 := by decide

/-- Row `R` with column `c` put back is (R, c). -/
private theorem lift_row (R : Fin 8192) (c : Fin 8192) :
    reduces_row.lift (ix1 R) c = ix2 R c :=
  funext fun d => Fin.ext (by match d with | ⟨0, _⟩ => rfl | ⟨1, _⟩ => rfl)

/-- The word the maximum starts from is `-∞`. -/
private theorem negInf_word : Ideal.ofBits .f32 0xFF800000#32 = (⊥ : EReal) := by
  simp [Ideal.ofBits, Ideal.ieee]

/-- The reference's row maximum. -/
theorem max_apply (x0 : (⟨S8192x512, .f32⟩ : BufTy).Contents (Elt Ideal)) (a : Fin 8192 → Fin 512 → ℝ)
    (ha : ∀ i k, val_main_v16 (F := Ideal) x0 (ix2 i k) = (a i k : EReal)) (R : Fin 8192) :
    val_main_v21 (F := Ideal) x0 (ix1 R) = pM (sim a R) 8192 := by
  delta val_main_v21
  rw [Host.reduce_eq_fold_single FloatOps.maximumf _ _ reducesTo_S8192x8192_S8192_d1 reduces_row h_S_,
    Cert.SupCon.pM_full, val_main_cst_2_apply]
  have hf : (val_main_v20 (F := Ideal) x0 ∘ reduces_row.lift (ix1 R))
      = fun c : Fin 8192 => ((sim a R c : ℝ) : EReal) :=
    funext fun (c : Fin 8192) =>
      (congrArg (val_main_v20 (F := Ideal) x0) (lift_row R c)).trans (sim_apply x0 a ha R c)
  rw [hf]
  exact congrArg (fun b => Finset.fold max b (fun c : Fin 8192 => ((sim a R c : ℝ) : EReal)) Finset.univ) negInf_word

/-- The row maximum is spread back over the row: entry (R, C) reads it at R. -/
private theorem idx_max (R C : Fin 8192) : idx_main_v22 (idx_main_v23 (ix2 R C)) = ix1 R :=
  funext fun d => Fin.ext (by match d with | ⟨0, _⟩ => rfl)

/-- The reference's exponentials. -/
theorem e_apply (x0 : (⟨S8192x512, .f32⟩ : BufTy).Contents (Elt Ideal)) (a : Fin 8192 → Fin 512 → ℝ)
    (ha : ∀ i k, val_main_v16 (F := Ideal) x0 (ix2 i k) = (a i k : EReal)) (R C : Fin 8192) :
    val_main_v25 (F := Ideal) x0 (ix2 R C) = Ideal.exp (((sim a R C : ℝ) : EReal) - pM (sim a R) 8192) := by
  rw [val_main_v25_apply, val_main_v24_apply, val_main_v23_apply, val_main_v22_apply, idx_max,
    sim_apply x0 a ha R C, max_apply x0 a ha R]
  simp only [Ideal.hostUnary_exp_def, Ideal.subf_def]

end Cert.ReferenceIdeal.RefSim

end
-- ==== Proof.RefRow.lean ====
/-
  The reference from its exponentials to its result, read at an index on the extended reals.

  With mask words 0 or 1, a converted mask entry times (1 - [R = C]) is 1 where the word is not zero
  off the diagonal and 0 elsewhere. The negatives' sum, the positives' count and the masked sum
  Σ_C (e p - L) p are then the whole-row quantities of the specification, the selected divisor is
  the count or 1, and the result is the mean of the rows.
-/
import proofs.«400907_j30777735643988_3_alg».proof.Proof.RefRead
import proofs.«400907_j30777735643988_3_alg».proof.Proof.Spec
import proofs.«400907_j30777735643988_3_alg».proof.Proof.Online
import proofs.«400907_j30777735643988_3_alg».proof.Proof.RefSim

noncomputable section

namespace Cert.ReferenceIdeal.RefRow

open Idealize.ShloMosaic Idealize.ShloMosaic.TcCoe Idealize.ShloMosaic.ValueIdx
open Cert.ReferenceIdeal Cert.ReferenceIdeal.Gen Cert.ReferenceIdeal.Read
open Cert.SupCon (sim pM Msk lossRow lossTotal)
open scoped Classical

/-- The 32-bit pattern of the float one. -/
theorem one_f32 : Ideal.ofBits .f32 0x3F800000#32 = 1 := by
  rw [show (1 : EReal) = ((1 : ℝ) : EReal) by norm_cast]
  simp [Ideal.ofBits, Ideal.ieee, -EReal.coe_mul]; norm_num

/-- Row and column numbers below 8192 are equal as 32-bit words only when equal. -/
theorem ofNat_inj (R C : Fin 8192) : BitVec.ofNat 32 R.val = BitVec.ofNat 32 C.val ↔ R = C := by
  constructor
  · intro h
    have h' := congrArg BitVec.toNat h
    simp only [BitVec.toNat_ofNat] at h'
    have hR := R.isLt
    have hC := C.isLt
    apply Fin.ext
    omega
  · rintro rfl; rfl

/-- The off-diagonal factor: 1 - [R = C]. -/
theorem offdiag_apply (R C : Fin 8192) :
    val_main_v7 (F := Ideal) (ix2 R C) = if R = C then (0 : EReal) else 1 := by
  rw [val_main_v7_apply, val_main_v6_apply, val_main_cst_apply, val_main_v5_apply, val_main_v4_apply,
    val_main_v3_apply, val_main_v0_apply, val_main_v2_apply, val_main_c_apply, val_main_v1_apply]
  show Ideal.ofBits .f32 0x3F800000#32
      - ((((BitVec.ofBool (BitVec.ofNat 32 R.val + 0#32 == BitVec.ofNat 32 C.val)).toNat : ℕ) : ℝ) : EReal) = _
  rw [one_f32, BitVec.add_zero]
  by_cases h : R = C
  · have hb : (BitVec.ofNat 32 R.val == BitVec.ofNat 32 C.val) = true := by
      rw [beq_iff_eq]; exact (ofNat_inj R C).mpr h
    rw [hb, if_pos h]
    show (1 : EReal) - (((1 : ℕ) : ℝ) : EReal) = 0
    rw [Nat.cast_one, EReal.coe_one]
    exact EReal.sub_self (by decide) (by decide)
  · have hb : (BitVec.ofNat 32 R.val == BitVec.ofNat 32 C.val) = false := by
      rw [beq_eq_false_iff_ne]; exact fun e => h ((ofNat_inj R C).mp e)
    rw [hb, if_neg h]
    show (1 : EReal) - (((0 : ℕ) : ℝ) : EReal) = 1
    rw [Nat.cast_zero, EReal.coe_zero, sub_zero]

/-- A converted 0/1 word times the off-diagonal factor. -/
theorem mask_core (b : BitVec 32) (hb : b = 0#32 ∨ b = 1#32) (R C : Fin 8192) (P : Prop) [Decidable P]
    (hP : P ↔ (b ≠ 0#32 ∧ R ≠ C)) :
    (((b.toInt : ℤ) : ℝ) : EReal) * (if R = C then (0 : EReal) else 1) = if P then (1 : EReal) else 0 := by
  by_cases h : R = C
  · rw [if_pos h, mul_zero, if_neg (fun hm => (hP.mp hm).2 h)]
  · rw [if_neg h, mul_one]
    rcases hb with h0 | h1
    · rw [if_neg (fun hm => (hP.mp hm).1 h0), h0, BitVec.toInt_zero, Int.cast_zero, EReal.coe_zero]
    · have h1i : (1#32 : BitVec 32).toInt = 1 := by decide
      rw [if_pos (hP.mpr ⟨by rw [h1]; decide, h⟩), h1, h1i, Int.cast_one, EReal.coe_one]

/-- A converted 0/1 mask entry off the diagonal. -/
theorem mask_apply (w : (⟨S8192x8192, .i32⟩ : BufTy).Contents (Elt Ideal))
    (hw : ∀ idx, w idx = 0#32 ∨ w idx = 1#32) (R C : Fin 8192) :
    val_main_v9 (F := Ideal) w (ix2 R C) = if Msk (fun i j => w (ix2 i j)) R C then (1 : EReal) else 0 := by
  rw [val_main_v9_apply, val_main_v8_apply, offdiag_apply]
  exact mask_core (w (ix2 R C)) (hw _) R C _ Iff.rfl

/-- The same for the second mask (the program multiplies it by the same off-diagonal factor). -/
theorem mask2_apply (w : (⟨S8192x8192, .i32⟩ : BufTy).Contents (Elt Ideal))
    (hw : ∀ idx, w idx = 0#32 ∨ w idx = 1#32) (R C : Fin 8192) :
    val_main_v11 (F := Ideal) w (ix2 R C) = if Msk (fun i j => w (ix2 i j)) R C then (1 : EReal) else 0 := by
  rw [val_main_v11_apply, val_main_v10_apply, offdiag_apply]
  exact mask_core (w (ix2 R C)) (hw _) R C _ Iff.rfl

/-! The indices the row sums and the broadcasts read. -/

theorem idx28 (R C : Fin 8192) : idx_main_v28 (ix1 R) C = ix2 R C :=
  funext fun a => by match a with | ⟨0, _⟩ => rfl | ⟨1, _⟩ => rfl

theorem idx33 (R C : Fin 8192) : idx_main_v33 (ix1 R) C = ix2 R C :=
  funext fun a => by match a with | ⟨0, _⟩ => rfl | ⟨1, _⟩ => rfl

theorem idx38 (R C : Fin 8192) : idx_main_v38 (ix1 R) C = ix2 R C :=
  funext fun a => by match a with | ⟨0, _⟩ => rfl | ⟨1, _⟩ => rfl

theorem idx2931 (R C : Fin 8192) : idx_main_v29 (idx_main_v31 (ix2 R C)) = ix1 R :=
  funext fun a => by match a with | ⟨0, _⟩ => rfl

section Row

variable (x0 : (⟨S8192x512, .f32⟩ : BufTy).Contents (Elt Ideal))
  (x1 x2 : (⟨S8192x8192, .i32⟩ : BufTy).Contents (Elt Ideal)) (a : Fin 8192 → Fin 512 → ℝ)
  (ha : ∀ i k, val_main_v16 (F := Ideal) x0 (ix2 i k) = (a i k : EReal))
  (h1 : ∀ idx, x1 idx = 0#32 ∨ x1 idx = 1#32) (h2 : ∀ idx, x2 idx = 0#32 ∨ x2 idx = 1#32)

include h1 in
/-- The reference's count of positives in row R. -/
theorem cnt_apply (R : Fin 8192) :
    val_main_v33 (F := Ideal) x1 (ix1 R) = Cert.SupCon.pC (Msk (fun i j => x1 (ix2 i j)) R) 8192 := by
  rw [val_main_v33_apply, val_main_cst_4_apply, Ideal.ofBits_def, Ideal.ofBits_zero_f32, ← Cert.SupCon.card_sum_eq]
  refine congrArg (0 + ·) (Finset.sum_congr rfl fun C _ => ?_)
  rw [idx33, mask_apply x1 h1]

include ha h2 in
/-- The reference's sum of the negatives' exponentials in row R. -/
theorem neg_apply (R : Fin 8192) :
    val_main_v28 (F := Ideal) x0 x2 (ix1 R)
      = Cert.SupCon.pL (sim a R) (Msk (fun i j => x2 (ix2 i j)) R) 8192 := by
  rw [val_main_v28_apply, val_main_cst_3_apply, Ideal.ofBits_def, Ideal.ofBits_zero_f32, ← Cert.SupCon.neg_sum_eq]
  refine congrArg (0 + ·) (Finset.sum_congr rfl fun C _ => ?_)
  rw [idx28, val_main_v27_apply, RefSim.e_apply x0 a ha, mask2_apply x2 h2]
  rfl

include ha h2 in
/-- Its logarithm, broadcast back over the row. -/
theorem log_apply (R C : Fin 8192) :
    val_main_v31 (F := Ideal) x0 x2 (ix2 R C)
      = Ideal.log (Cert.SupCon.pL (sim a R) (Msk (fun i j => x2 (ix2 i j)) R) 8192) := by
  rw [val_main_v31_apply, val_main_v30_apply, val_main_v29_apply, idx2931, neg_apply x0 x2 a ha h2]
  rfl

include ha h1 h2 in
/-- The negated masked sum of row R. -/
theorem msum_apply (R : Fin 8192) :
    val_main_v39 (F := Ideal) x0 x1 x2 (ix1 R)
      = 0 - (Cert.SupCon.pL (sim a R) (Msk (fun i j => x1 (ix2 i j)) R) 8192
              - Ideal.log (Cert.SupCon.pL (sim a R) (Msk (fun i j => x2 (ix2 i j)) R) 8192)
                * Cert.SupCon.pC (Msk (fun i j => x1 (ix2 i j)) R) 8192) := by
  rw [val_main_v39_apply, val_main_v38_apply, val_main_cst_7_apply, Ideal.ofBits_def, Ideal.ofBits_zero_f32,
    ← Cert.SupCon.masked_sum_eq]
  refine congrArg (fun t => -(0 + t)) (Finset.sum_congr rfl fun C _ => ?_)
  rw [idx38, val_main_v37_apply, val_main_v32_apply, val_main_v26_apply, RefSim.e_apply x0 a ha,
    mask_apply x1 h1, log_apply x0 x2 a ha h2]
  rfl

include h1 in
/-- The selected divisor of row R: the count, or 1 when it is 0. -/
theorem div_apply (R : Fin 8192) :
    val_main_v36 (F := Ideal) x1 (ix1 R)
      = if Cert.SupCon.pC (Msk (fun i j => x1 (ix2 i j)) R) 8192 = 0 then 1
        else Cert.SupCon.pC (Msk (fun i j => x1 (ix2 i j)) R) 8192 := by
  rw [val_main_v36_apply, val_main_v35_apply, val_main_v34_apply, val_main_cst_5_apply, val_main_call1_v1_apply,
    val_main_call1_v0_apply, val_main_cst_6_apply, cnt_apply x1 h1, Ideal.ofBits_def, Ideal.ofBits_def,
    Ideal.ofBits_zero_f32, one_f32]
  generalize Cert.SupCon.pC _ 8192 = cd
  show Scalar.select (BitVec.ofBool (decide (cd = 0))) 1 cd = _
  by_cases h : cd = 0
  · rw [if_pos h, decide_eq_true h]; exact select_one _ _
  · rw [if_neg h, decide_eq_false h]; exact select_zero _ _

end Row

/-- Row R of the reference's loss. -/
theorem row_apply (x0 : (⟨S8192x512, .f32⟩ : BufTy).Contents (Elt Ideal))
    (x1 x2 : (⟨S8192x8192, .i32⟩ : BufTy).Contents (Elt Ideal)) (a : Fin 8192 → Fin 512 → ℝ)
    (ha : ∀ i k, val_main_v16 (F := Ideal) x0 (ix2 i k) = (a i k : EReal))
    (h1 : ∀ idx, x1 idx = 0#32 ∨ x1 idx = 1#32) (h2 : ∀ idx, x2 idx = 0#32 ∨ x2 idx = 1#32) (R : Fin 8192) :
    val_main_v40 (F := Ideal) x0 x1 x2 (ix1 R)
      = lossRow (sim a R) (Msk (fun i j => x1 (ix2 i j)) R) (Msk (fun i j => x2 (ix2 i j)) R) := by
  rw [val_main_v40_apply, msum_apply x0 x1 x2 a ha h1 h2, div_apply x1 h1]
  rfl

/-- The reference's result: the mean of the rows. -/
theorem total_apply (x0 : (⟨S8192x512, .f32⟩ : BufTy).Contents (Elt Ideal))
    (x1 x2 : (⟨S8192x8192, .i32⟩ : BufTy).Contents (Elt Ideal)) (a : Fin 8192 → Fin 512 → ℝ)
    (ha : ∀ i k, val_main_v16 (F := Ideal) x0 (ix2 i k) = (a i k : EReal))
    (h1 : ∀ idx, x1 idx = 0#32 ∨ x1 idx = 1#32) (h2 : ∀ idx, x2 idx = 0#32 ∨ x2 idx = 1#32) (j : S_.Idx) :
    val_main_v42 (F := Ideal) x0 x1 x2 j
      = lossTotal a (fun i j => x1 (ix2 i j)) (fun i j => x2 (ix2 i j)) := by
  rw [val_main_v42_apply, val_main_v41_apply, val_main_cst_8_apply, val_main_cst_9_apply, Ideal.ofBits_def,
    Ideal.ofBits_def, Ideal.ofBits_zero_f32]
  have hs : ∑ j : S8192.Idx, val_main_v40 (F := Ideal) x0 x1 x2 j
      = ∑ R : Fin 8192, lossRow (sim a R) (Msk (fun i j => x1 (ix2 i j)) R) (Msk (fun i j => x2 (ix2 i j)) R) := by
    refine (Fintype.sum_equiv
      (⟨fun R => ix1 R, fun j => j 0, fun R => rfl, fun j => (eq_ix1 j).symm⟩ : Fin 8192 ≃ S8192.Idx) _ _
      (fun R => ?_)).symm
    exact (row_apply x0 x1 x2 a ha h1 h2 R).symm
  rw [hs]
  rfl

end Cert.ReferenceIdeal.RefRow

end
-- ==== Proof.lean ====
/-
  The certificate: the supervised-contrastive loss kernel against its reference, over the extended reals.

  Both programs normalize the features, `y i k = x i k / max (‖x i‖) eps`, and both end at the mean
  over the rows i of
      (0 - (lp i - log (ln i) * cd i)) / (cd i, or 1 when cd i = 0),
  where, with s i j the inner product of rows i and j of y times 1 / T, M i the largest s i j,
  lp i and ln i are the sums of exp (s i j - M i) over the positive, respectively negative, mask off
  the diagonal, and cd i is the number of such positives.
    * The kernel multiplies by a 32-bit constant where the reference divides by its 32-bit
      temperature; the constant is named the exact reciprocal of the reference's word, so both are
      the same product on every extended real (`preserves` is that name's statement).
    * The kernel reaches M, lp, ln, cd one block of 1024 columns at a time, rescaling its sums by
      exp (M_old - M_new); since finite features normalize to finite features every number involved is
      real, and the rescaled sums are the sums over the columns seen so far.
    * The kernel tests the mask words against zero where the reference multiplies by them; on words
      that are 0 or 1 (the precondition) the two agree, and the reference's masked sum
      Σ_j (e p - L) p is Σ_j e p - L · Σ_j p also when L = log 0 = -∞.
-/
import proofs.«400907_j30777735643988_3_alg».proof.Defs
import proofs.«400907_j30777735643988_3_alg».proof.Proof.Gen.Kernel
import proofs.«400907_j30777735643988_3_alg».proof.Proof.Gen.Kernel.Skeleton
import proofs.«400907_j30777735643988_3_alg».proof.Proof.Gen.Kernel.Launch
import proofs.«400907_j30777735643988_3_alg».proof.Proof.Gen.Kernel.Points
import proofs.«400907_j30777735643988_3_alg».proof.Proof.Gen.Kernel.Frame
import proofs.«400907_j30777735643988_3_alg».proof.Proof.Gen.KernelIdeal
import proofs.«400907_j30777735643988_3_alg».proof.Proof.Gen.KernelIdeal.Skeleton
import proofs.«400907_j30777735643988_3_alg».proof.Proof.Gen.KernelIdeal.Launch
import proofs.«400907_j30777735643988_3_alg».proof.Proof.Gen.KernelIdeal.Points
import proofs.«400907_j30777735643988_3_alg».proof.Proof.Gen.KernelIdeal.Frame
import proofs.«400907_j30777735643988_3_alg».proof.Proof.Gen.ReferenceIdeal
import proofs.«400907_j30777735643988_3_alg».proof.Proof.Gen.Pre_finite_inputs
import proofs.«400907_j30777735643988_3_alg».proof.Proof.Pre
import proofs.«400907_j30777735643988_3_alg».proof.Proof.KRun
import proofs.«400907_j30777735643988_3_alg».proof.Proof.RefRow
import Idealize.ShloMosaic.Adequacy
import Idealize.ShloMosaic.Init

noncomputable section

namespace Cert.Proof

open Idealize.ShloMosaic Idealize.SL.Sem Idealize.ShloMosaic.ValueIdx
open Cert.SupCon

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: the kernel's scale denotes the exact reciprocal of the reference's temperature word. -/
theorem preserves : Cert.preserves_Kernel_KernelIdeal :=
  IdealRules.named_const.statement Cert.KernelIdeal.κ "inv_temperature" .f32 0x41649249#32
    ((134217728 / 9395241 : ℝ) : EReal) rfl

/-- On finite features and 0/1 mask words both programs end at the mean of the rows of the specification. -/
theorem algebraic : Cert.algebraic_KernelIdeal_ReferenceIdeal := by
  intro m ρ m' ρ' hpre hagree
  have hdec := fun c => Cert.SupCon.PreRead.decode _ _ _ (hpre c)
  have hfn : ∀ (c : Dev Cert.KernelIdeal.nD) (i : Fin 8192) (k : Fin 512), ∃ r : ℝ,
      fnE (fun i k => m ((c.tc : Thread Cert.KernelIdeal.nD Cert.KernelIdeal.τ).loc Cert.KernelIdeal.main_arg0) (ix2 i k)) i k
        = (r : EReal) :=
    fun c => fnE_real _ (fun i k => (hdec c).1 (ix2 i k))
  choose a ha using hfn
  refine ⟨fun c _ => lossTotal (a c) (Cert.KernelIdeal.Inv.wP m c) (Cert.KernelIdeal.Inv.wN m c), ?_, ?_⟩
  · exact Cert.KernelIdeal.RunValue.run m ρ a
      (fun c R k => (Cert.KernelIdeal.Fn.fn_apply m c R k).trans (ha c R k))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, (hagree c).1, (hagree c).2.1, (hagree c).2.2]
    funext j
    rw [Cert.ReferenceIdeal.RefRow.total_apply _ _ _ (a c)
      (fun i k => (Cert.ReferenceIdeal.RefSim.fn_apply _ i k).trans (ha c i k)) (hdec c).2.1 (hdec c).2.2 j]
    show lossTotal (a c) _ _ = lossTotal (a c) (fun i j => Cert.KernelIdeal.Gen.V m c Cert.KernelIdeal.main_arg1 (ix2 i j))
      (fun i j => Cert.KernelIdeal.Gen.V m c Cert.KernelIdeal.main_arg2 (ix2 i j))
    rw [Cert.KernelIdeal.Gen.V_main_arg1 m c, Cert.KernelIdeal.Gen.V_main_arg2 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
